-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x24x64 : Shape := ⟨3, ![4096, 24, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S4096x24x64 : S_.BroadcastsInDim S4096x24x64 (![] : Fin 0 → Fin S4096x24x64.rank)
  reducesTo_S4096x24x64_S_d0_1_2 : S4096x24x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S64x1 .f32) (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x24x64 .f32) (main_arg1 : FVec F S64x64 .f32) (main_arg2 : FVec F S64 .f32) (main_arg3 : FVec F S64x1 .f32) (main_arg4 : FVec F S1 .f32) (main_arg5 : FVec F S64x1 .f32) (main_arg6 : FVec F S1 .f32) : IVec S_ 1 :=
  let main_v0 : FVec F S4096x24x64 .f32 := Host.absf main_arg0
  let main_cst : FVec F S_ .f32 := constant S_ .f32 0x7F800000#32
  let main_v1 : FVec F S4096x24x64 .f32 := broadcastInDim S4096x24x64 ![] bcast_S_S4096x24x64 main_cst
  let main_v2 : IVec S4096x24x64 1 := cmpf .olt main_v0 main_v1
  let main_c : IVec S_ 1 := constantI S_ 1 1#1
  let main_v3 : IVec S_ 1 := (fun x v => Host.reduce IntOp.andi x v reducesTo_S4096x24x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_v13 main_v16
-- ==== Kernel.lean ====
abbrev S4096x24x64 : Shape := ⟨3, ![4096, 24, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S4096x1 : Shape := ⟨2, ![4096, 1]⟩
abbrev S128x24x64 : Shape := ⟨3, ![128, 24, 64]⟩
abbrev S128x1 : Shape := ⟨2, ![128, 1]⟩
abbrev S128x1x64 : Shape := ⟨3, ![128, 1, 64]⟩
abbrev S128x64 : Shape := ⟨2, ![128, 64]⟩
abbrev S128x276x64 : Shape := ⟨3, ![128, 276, 64]⟩
abbrev S35328x64 : Shape := ⟨2, ![35328, 64]⟩
abbrev S1x64 : Shape := ⟨2, ![1, 64]⟩
abbrev S35328x1 : Shape := ⟨2, ![35328, 1]⟩
abbrev S1x1 : Shape := ⟨2, ![1, 1]⟩
abbrev S128x276x1 : Shape := ⟨3, ![128, 276, 1]⟩
abbrev S128x1x1 : Shape := ⟨3, ![128, 1, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x24x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S64x1, .f32⟩
  | .hbm, ⟨6, _⟩ => ⟨S1, .f32⟩
  | .hbm, ⟨7, _⟩ => ⟨S4096x1, .f32⟩
  | .local _ .vmem, ⟨0, _⟩ => ⟨S128x24x64, .f32⟩
  | .local _ .vmem, ⟨1, _⟩ => ⟨S128x24x64, .f32⟩
  | .local _ .vmem, ⟨2, _⟩ => ⟨S64x64, .f32⟩
  | .local _ .vmem, ⟨3, _⟩ => ⟨S64, .f32⟩
  | .local _ .vmem, ⟨4, _⟩ => ⟨S64x1, .f32⟩
  | .local _ .vmem, ⟨5, _⟩ => ⟨S1, .f32⟩
  | .local _ .vmem, ⟨6, _⟩ => ⟨S64x1, .f32⟩
  | .local _ .vmem, ⟨7, _⟩ => ⟨S1, .f32⟩
  | .local _ .vmem, ⟨8, _⟩ => ⟨S128x1, .f32⟩
  | .local _ .vmem, ⟨9, _⟩ => ⟨S128x1, .f32⟩
  | _, _ => ⟨S4096x24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x24x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x24x64_S128x24x64_0_0_0 : ∀ a, (![0, 0, 0] : Fin 3 → Nat) a + S128x24x64.size a ≤ S128x24x64.size a
  h_S128x24x64 : 0 < S128x24x64.numel
  slices_S128x24x64_o0_0_0_S128x1x64 : S128x24x64.Slices ![0, 0, 0] S128x1x64
  shapeCasts_S128x1x64_S128x64 : S128x1x64.ShapeCasts S128x64
  slices_S128x24x64_o0_1_0_S128x1x64 : S128x24x64.Slices ![0, 1, 0] S128x1x64
  slices_S128x24x64_o0_2_0_S128x1x64 : S128x24x64.Slices ![0, 2, 0] S128x1x64
  slices_S128x24x64_o0_3_0_S128x1x64 : S128x24x64.Slices ![0, 3, 0] S128x1x64
  slices_S128x24x64_o0_4_0_S128x1x64 : S128x24x64.Slices ![0, 4, 0] S128x1x64
  slices_S128x24x64_o0_5_0_S128x1x64 : S128x24x64.Slices ![0, 5, 0] S128x1x64
  slices_S128x24x64_o0_6_0_S128x1x64 : S128x24x64.Slices ![0, 6, 0] S128x1x64
  slices_S128x24x64_o0_7_0_S128x1x64 : S128x24x64.Slices ![0, 7, 0] S128x1x64
  slices_S128x24x64_o0_8_0_S128x1x64 : S128x24x64.Slices ![0, 8, 0] S128x1x64
  slices_S128x24x64_o0_9_0_S128x1x64 : S128x24x64.Slices ![0, 9, 0] S128x1x64
  slices_S128x24x64_o0_10_0_S128x1x64 : S128x24x64.Slices ![0, 10, 0] S128x1x64
  slices_S128x24x64_o0_11_0_S128x1x64 : S128x24x64.Slices ![0, 11, 0] S128x1x64
  slices_S128x24x64_o0_12_0_S128x1x64 : S128x24x64.Slices ![0, 12, 0] S128x1x64
  slices_S128x24x64_o0_13_0_S128x1x64 : S128x24x64.Slices ![0, 13, 0] S128x1x64
  slices_S128x24x64_o0_14_0_S128x1x64 : S128x24x64.Slices ![0, 14, 0] S128x1x64
  slices_S128x24x64_o0_15_0_S128x1x64 : S128x24x64.Slices ![0, 15, 0] S128x1x64
  slices_S128x24x64_o0_16_0_S128x1x64 : S128x24x64.Slices ![0, 16, 0] S128x1x64
  slices_S128x24x64_o0_17_0_S128x1x64 : S128x24x64.Slices ![0, 17, 0] S128x1x64
  slices_S128x24x64_o0_18_0_S128x1x64 : S128x24x64.Slices ![0, 18, 0] S128x1x64
  slices_S128x24x64_o0_19_0_S128x1x64 : S128x24x64.Slices ![0, 19, 0] S128x1x64
  slices_S128x24x64_o0_20_0_S128x1x64 : S128x24x64.Slices ![0, 20, 0] S128x1x64
  slices_S128x24x64_o0_21_0_S128x1x64 : S128x24x64.Slices ![0, 21, 0] S128x1x64
  slices_S128x24x64_o0_22_0_S128x1x64 : S128x24x64.Slices ![0, 22, 0] S128x1x64
  slices_S128x24x64_o0_23_0_S128x1x64 : S128x24x64.Slices ![0, 23, 0] S128x1x64
  shapeCasts_S128x64_S128x1x64 : S128x64.ShapeCasts S128x1x64
  concatenates_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x1x64_S128x276x64_d1 : Shape.Concatenates (S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: S128x1x64 :: []) S128x276x64 1
  shapeCasts_S128x276x64_S35328x64 : S128x276x64.ShapeCasts S35328x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S35328x64 : S1x64.Broadcasts S35328x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S35328x1 : S1x1.Broadcasts S35328x1
  shapeCasts_S35328x1_S128x276x1 : S35328x1.ShapeCasts S128x276x1
  reduces_S128x276x1_S128x1 : S128x276x1.Reduces [1] S128x1
  shapeCasts_S128x1_S128x1x1 : S128x1.ShapeCasts S128x1x1
  broadcasts_S128x1x1_S128x276x1 : S128x1x1.Broadcasts S128x276x1
  broadcasts_S128x276x1_S128x276x64 : S128x276x1.Broadcasts S128x276x64
  reduces_S128x276x64_S128x64 : S128x276x64.Reduces [1] S128x64
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S35328x64_S64x64_S35328x64_1_0_0_1_n_n_wf : DotDims.WF S35328x64 S64x64 S35328x64 [1] [0] [0] [1] [] []
  dot_S35328x64_S64x1_S35328x1_1_0_0_1_n_n_wf : DotDims.WF S35328x64 S64x1 S35328x1 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x24x64.size a ≤ S4096x24x64.size a
  hwx0_0 : ∀ i : grid0.Coords, EltTy.bits .f32 = 32 ∨ (Rect.block (s := S4096x24x64) S128x24x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S4096x1.size a
  hwx0_7 : ∀ i : grid0.Coords, EltTy.bits .f32 = 32 ∨ (Rect.block (s := S4096x1) S128x1.size (cc0_transform_7 i) (hinb0_7 i)).WholeWords (EltTy.packing .f32)

variable [Facts₀]

def dot_S35328x64_S64x64_S35328x64_1_0_0_1_n_n : DotDims S35328x64 S64x64 S35328x64 where
  lhsContracting := [1]
  rhsContracting := [0]
  lhsNonContracting := [0]
  rhsNonContracting := [1]
  lhsBatch := []
  rhsBatch := []
  wf := dot_S35328x64_S64x64_S35328x64_1_0_0_1_n_n_wf
def dot_S35328x64_S64x1_S35328x1_1_0_0_1_n_n : DotDims S35328x64 S64x1 S35328x1 where
  lhsContracting := [1]
  rhsContracting := [0]
  lhsNonContracting := [0]
  rhsNonContracting := [1]
  lhsBatch := []
  rhsBatch := []
  wf := dot_S35328x64_S64x1_S35328x1_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S128x24x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x24x64 : Shape := ⟨3, ![4096, 24, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S276 : Shape := ⟨1, ![276]⟩
abbrev S_ : Shape := ⟨0, ![]⟩
abbrev S276x1 : Shape := ⟨2, ![276, 1]⟩
abbrev S4096x276x64 : Shape := ⟨3, ![4096, 276, 64]⟩
abbrev S1x1x64 : Shape := ⟨3, ![1, 1, 64]⟩
abbrev S4096x276x1 : Shape := ⟨3, ![4096, 276, 1]⟩
abbrev S1x1x1 : Shape := ⟨3, ![1, 1, 1]⟩
abbrev S4096x1 : Shape := ⟨2, ![4096, 1]⟩
abbrev S4096x1x1 : Shape := ⟨3, ![4096, 1, 1]⟩
abbrev S4096x64 : Shape := ⟨2, ![4096, 64]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x24x64, .f32⟩
  | .hbm, ⟨1, _⟩ => ⟨S64x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S64x1, .f32⟩
  | .hbm, ⟨6, _⟩ => ⟨S1, .f32⟩
  | .hbm, ⟨7, _⟩ => ⟨S276, .i32⟩
  | .hbm, ⟨8, _⟩ => ⟨S276, .i32⟩
  | .hbm, ⟨9, _⟩ => ⟨S_, .i32⟩
  | .hbm, ⟨10, _⟩ => ⟨S276, .i32⟩
  | .hbm, ⟨11, _⟩ => ⟨S276, .i1⟩
  | .hbm, ⟨12, _⟩ => ⟨S_, .i32⟩
  | .hbm, ⟨13, _⟩ => ⟨S276, .i32⟩
  | .hbm, ⟨14, _⟩ => ⟨S276, .i32⟩
  | .hbm, ⟨15, _⟩ => ⟨S276, .i32⟩
  | .hbm, ⟨16, _⟩ => ⟨S276x1, .i32⟩
  | .hbm, ⟨17, _⟩ => ⟨S4096x276x64, .f32⟩
  | .hbm, ⟨18, _⟩ => ⟨S_, .i32⟩
  | .hbm, ⟨19, _⟩ => ⟨S276, .i32⟩
  | .hbm, ⟨20, _⟩ => ⟨S276, .i1⟩
  | .hbm, ⟨21, _⟩ => ⟨S_, .i32⟩
  | .hbm, ⟨22, _⟩ => ⟨S276, .i32⟩
  | .hbm, ⟨23, _⟩ => ⟨S276, .i32⟩
  | .hbm, ⟨24, _⟩ => ⟨S276, .i32⟩
  | .hbm, ⟨25, _⟩ => ⟨S276x1, .i32⟩
  | .hbm, ⟨26, _⟩ => ⟨S4096x276x64, .f32⟩
  | .hbm, ⟨27, _⟩ => ⟨S4096x276x64, .f32⟩
  | .hbm, ⟨28, _⟩ => ⟨S4096x276x64, .f32⟩
  | .hbm, ⟨29, _⟩ => ⟨S1x1x64, .f32⟩
  | .hbm, ⟨30, _⟩ => ⟨S4096x276x64, .f32⟩
  | .hbm, ⟨31, _⟩ => ⟨S4096x276x64, .f32⟩
  | .hbm, ⟨32, _⟩ => ⟨S_, .f32⟩
  | .hbm, ⟨33, _⟩ => ⟨S4096x276x64, .f32⟩
  | .hbm, ⟨34, _⟩ => ⟨S4096x276x64, .f32⟩
  | .hbm, ⟨35, _⟩ => ⟨S4096x276x1, .f32⟩
  | .hbm, ⟨36, _⟩ => ⟨S1x1x1, .f32⟩
  | .hbm, ⟨37, _⟩ => ⟨S4096x276x1, .f32⟩
  | .hbm, ⟨38, _⟩ => ⟨S4096x276x1, .f32⟩
  | .hbm, ⟨39, _⟩ => ⟨S_, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1x1, .f32⟩
  | .hbm, ⟨45, _⟩ => ⟨S4096x276x1, .f32⟩
  | .hbm, ⟨46, _⟩ => ⟨S4096x276x1, .f32⟩
  | .hbm, ⟨47, _⟩ => ⟨S4096x276x1, .f32⟩
  | .hbm, ⟨48, _⟩ => ⟨S_, .f32⟩
  | .hbm, ⟨49, _⟩ => ⟨S4096x1, .f32⟩
  | .hbm, ⟨50, _⟩ => ⟨S4096x1x1, .f32⟩
  | .hbm, ⟨51, _⟩ => ⟨S4096x276x1, .f32⟩
  | .hbm, ⟨52, _⟩ => ⟨S4096x276x1, .f32⟩
  | .hbm, ⟨53, _⟩ => ⟨S4096x276x64, .f32⟩
  | .hbm, ⟨54, _⟩ => ⟨S4096x276x64, .f32⟩
  | .hbm, ⟨55, _⟩ => ⟨S_, .f32⟩
  | .hbm, ⟨56, _⟩ => ⟨S4096x64, .f32⟩
  | .hbm, ⟨57, _⟩ => ⟨S4096x1, .f32⟩
  | .hbm, ⟨58, _⟩ => ⟨S1x1, .f32⟩
  | .hbm, ⟨59, _⟩ => ⟨S4096x1, .f32⟩
  | .hbm, ⟨60, _⟩ => ⟨S4096x1, .f32⟩
  | _, _ => ⟨S4096x24x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_c_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S276 : S_.BroadcastsInDim S276 (![] : Fin 0 → Fin S276.rank)
  bcast_S276_S276x1_0 : S276.BroadcastsInDim S276x1 (![0] : Fin 1 → Fin S276x1.rank)
  bcast_S64_S1x1x64_2 : S64.BroadcastsInDim S1x1x64 (![2] : Fin 1 → Fin S1x1x64.rank)
  bcast_S1x1x64_S4096x276x64_0_1_2 : S1x1x64.BroadcastsInDim S4096x276x64 (![0, 1, 2] : Fin 3 → Fin S4096x276x64.rank)
  bcast_S_S4096x276x64 : S_.BroadcastsInDim S4096x276x64 (![] : Fin 0 → Fin S4096x276x64.rank)
  bcast_S1_S1x1x1_2 : S1.BroadcastsInDim S1x1x1 (![2] : Fin 1 → Fin S1x1x1.rank)
  bcast_S1x1x1_S4096x276x1_0_1_2 : S1x1x1.BroadcastsInDim S4096x276x1 (![0, 1, 2] : Fin 3 → Fin S4096x276x1.rank)
  reducesTo_S4096x276x1_S4096x1_d1 : S4096x276x1.ReducesTo [1] S4096x1
  h_S_ : 0 < S_.numel
  bcast_S_S4096x1 : S_.BroadcastsInDim S4096x1 (![] : Fin 0 → Fin S4096x1.rank)
  bcast_S4096x1_S4096x1x1_0_2 : S4096x1.BroadcastsInDim S4096x1x1 (![0, 2] : Fin 2 → Fin S4096x1x1.rank)
  bcast_S4096x1x1_S4096x276x1_0_1_2 : S4096x1x1.BroadcastsInDim S4096x276x1 (![0, 1, 2] : Fin 3 → Fin S4096x276x1.rank)
  bcast_S4096x276x1_S4096x276x64_0_1_2 : S4096x276x1.BroadcastsInDim S4096x276x64 (![0, 1, 2] : Fin 3 → Fin S4096x276x64.rank)
  reducesTo_S4096x276x64_S4096x64_d1 : S4096x276x64.ReducesTo [1] S4096x64
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S4096x24x64_S276x1_S4096x276x64_02_1_n_n_1_1_4096164_wf : GatherDims.WF S4096x24x64 S276x1 S4096x276x64 [0, 2] [1] [] [1] [] 1 ![4096, 1, 64]
  dot_S4096x276x64_S64x64_S4096x276x64_2_0_01_1_n_n_wf : DotDims.WF S4096x276x64 S64x64 S4096x276x64 [2] [0] [0, 1] [1] [] []
  dot_S4096x276x64_S64x1_S4096x276x1_2_0_01_1_n_n_wf : DotDims.WF S4096x276x64 S64x1 S4096x276x1 [2] [0] [0, 1] [1] [] []
  dot_S4096x64_S64x1_S4096x1_1_0_0_1_n_n_wf : DotDims.WF S4096x64 S64x1 S4096x1 [1] [0] [0] [1] [] []

variable [Facts₀]

def gather_S4096x24x64_S276x1_S4096x276x64_02_1_n_n_1_1_4096164 : GatherDims S4096x24x64 S276x1 S4096x276x64 where
  offsetDims := [0, 2]
  collapsedSliceDims := [1]
  operandBatchingDims := []
  startIndicesBatchingDims := []
  startIndexMap := [1]
  indexVectorDim := 1
  sliceSizes := ![4096, 1, 64]
  wf := gather_S4096x24x64_S276x1_S4096x276x64_02_1_n_n_1_1_4096164_wf
def dot_S4096x276x64_S64x64_S4096x276x64_2_0_01_1_n_n : DotDims S4096x276x64 S64x64 S4096x276x64 where
  lhsContracting := [2]
  rhsContracting := [0]
  lhsNonContracting := [0, 1]
  rhsNonContracting := [1]
  lhsBatch := []
  rhsBatch := []
  wf := dot_S4096x276x64_S64x64_S4096x276x64_2_0_01_1_n_n_wf
def dot_S4096x276x64_S64x1_S4096x276x1_2_0_01_1_n_n : DotDims S4096x276x64 S64x1 S4096x276x1 where
  lhsContracting := [2]
  rhsContracting := [0]
  lhsNonContracting := [0, 1]
  rhsNonContracting := [1]
  lhsBatch := []
  rhsBatch := []
  wf := dot_S4096x276x64_S64x1_S4096x276x1_2_0_01_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.KerTerm.lean ====
/-
  The kernel body's result on one block of 128 samples as a composition of stages, each a function of the stage before and of
  the weight blocks: from the block of pairwise products [128, 276, 64] (flattened to 35328 rows for the two matrix products)
  the rectified attention layer, the logits (back in [128, 276, 1]), the softmax-weighted pooling over the pairs, and the
  final linear layer. The body's payloads are these stages by unfolding (`pay_eq_kerRest`).
-/
import proofs.«117869_j75273596829809_1_alg».proof.Proof.Gen.KernelIdeal.Skeleton

noncomputable section

namespace Cert.KernelIdeal.KerTerm

open Cert.KernelIdeal Cert.KernelIdeal.Gen Idealize.ShloMosaic

variable {F : FTy → Type} [FloatOps F]

/-- The attention layer on the block's products (as 35328 rows), rectified. -/
def kerHidden (inn : FVec F S128x276x64 .f32) (Wa : Vec F S64x64 .f32) (ba : Vec F S64 .f32) : FVec F S35328x64 .f32 :=
  maximumf
    (addf (matmul dot_S35328x64_S64x64_S35328x64_1_0_0_1_n_n none (shapeCast S35328x64 inn shapeCasts_S128x276x64_S35328x64) Wa
        (constant S35328x64 .f32 0x00000000#32))
      (broadcastTo S35328x64 (shapeCast S1x64 ba shapeCasts_S64_S1x64) broadcasts_S1x64_S35328x64))
    (broadcast S35328x64 (Scalar.ofBits .f32 0x00000000#32))

/-- The attention logits, back in [128, 276, 1]. -/
def kerLogits (hid : FVec F S35328x64 .f32) (Wp : Vec F S64x1 .f32) (bp : Vec F S1 .f32) : FVec F S128x276x1 .f32 :=
  shapeCast S128x276x1
    (addf (matmul dot_S35328x64_S64x1_S35328x1_1_0_0_1_n_n none hid Wp (constant S35328x1 .f32 0x00000000#32))
      (broadcastTo S35328x1 (shapeCast S1x1 bp shapeCasts_S1_S1x1) broadcasts_S1x1_S35328x1))
    shapeCasts_S35328x1_S128x276x1

/-- The logits less each sample's largest, exponentiated: the unnormalised softmax weights. -/
def kerExp (l : FVec F S128x276x1 .f32) : FVec F S128x276x1 .f32 :=
  exp (subf l
    (broadcastTo S128x276x1
      (shapeCast S128x1x1
        (maximumf (broadcast S128x1 (Scalar.ofBits .f32 0xFF800000#32))
          (multiReduction .maximumf [1] S128x1 l 0xFF800000#32 reduces_S128x276x1_S128x1 (.inl rfl) rfl))
        shapeCasts_S128x1_S128x1x1)
      broadcasts_S128x1x1_S128x276x1))

/-- The softmax weights over the pairs. -/
def kerAttn (e : FVec F S128x276x1 .f32) : FVec F S128x276x1 .f32 :=
  divf e
    (broadcastTo S128x276x1
      (shapeCast S128x1x1 (multiReduction .add [1] S128x1 e 0x00000000#32 reduces_S128x276x1_S128x1 (.inl rfl) rfl)
        shapeCasts_S128x1_S128x1x1)
      broadcasts_S128x1x1_S128x276x1)

/-- The products pooled over the pairs by the softmax weights. -/
def kerPooled (l : FVec F S128x276x1 .f32) (inn : FVec F S128x276x64 .f32) : FVec F S128x64 .f32 :=
  multiReduction .add [1] S128x64
    (mulf (broadcastTo S128x276x64 (kerAttn (kerExp l)) broadcasts_S128x276x1_S128x276x64) inn)
    0x00000000#32 reduces_S128x276x64_S128x64 (.inl rfl) rfl

/-- The final linear layer. -/
def kerOut (po : FVec F S128x64 .f32) (Wfc : Vec F S64x1 .f32) (bfc : Vec F S1 .f32) : FVec F S128x1 .f32 :=
  addf (matmul dot_S128x64_S64x1_S128x1_1_0_0_1_n_n none po Wfc (constant S128x1 .f32 0x00000000#32))
    (broadcastTo S128x1 (shapeCast S1x1 bfc shapeCasts_S1_S1x1) broadcasts_S1x1_S128x1)

/-- The body from the block of pairwise products on. -/
def kerRest (inn : FVec F S128x276x64 .f32) (Wa : Vec F S64x64 .f32) (ba : Vec F S64 .f32) (Wp : Vec F S64x1 .f32)
    (bp : Vec F S1 .f32) (Wfc : Vec F S64x1 .f32) (bfc : Vec F S1 .f32) : FVec F S128x1 .f32 :=
  kerOut (kerPooled (kerLogits (kerHidden inn Wa ba) Wp bp) inn) Wfc bfc

/-- The body's last two payloads, on a block of products and its rectified layer, are these stages. -/
theorem pay_eq_kerRest (inn : FVec F S128x276x64 .f32) (Wa : Vec F S64x64 .f32) (ba : Vec F S64 .f32) (Wp : Vec F S64x1 .f32)
    (bp : Vec F S1 .f32) (Wfc : Vec F S64x1 .f32) (bfc : Vec F S1 .f32) :
    k0_pay1 bfc (k0_pay515 inn (kerHidden inn Wa ba) Wp bp Wfc) = kerRest inn Wa ba Wp bp Wfc bfc := rfl

end Cert.KernelIdeal.KerTerm

end
-- ==== Proof.Spec.lean ====
/-
  The Attentional Factorization Machine, one sample at a time, over the extended reals.

  A sample is 24 fields of 64 features, `xr f d`. Its 276 field pairs `(i, j)`, `i < j`, are taken in
  lexicographic order: pair `p` is `(pr p, pc p)`. The network is
    inner p d   = xr (pr p) d * xr (pc p) d                      (pairwise products)
    hidden p a  = max (Σ_d inner p d * Wa d a + ba a) 0           (attention layer, rectified)
    logit p     = Σ_a hidden p a * Wp a + bp
    attn p      = exp (logit p - M) / Σ_q exp (logit q - M),  M = the largest logit   (softmax over the pairs)
    pooled d    = Σ_p attn p * inner p d
    out         = Σ_d pooled d * Wfc d + bfc.
  Every sum is a `Finset` sum over `Fin 276` or `Fin 64`, the maximum a fold of `max` from -∞, so that both
  programs' reductions read as these terms whatever order they run in. The words 0 and -∞ stay as their
  bit patterns: the same word stands on both sides and is never evaluated.
-/
import Idealize.ShloMosaic.PureOps.Ideal

noncomputable section

open scoped BigOperators

namespace AFM

open Idealize.ShloMosaic

/-! ## The field pairs -/

/-- The number of pairs `(i', j)` with `i' < i`: where row `i` of the strict upper triangle of a 24 × 24 grid starts. -/
def rowStart (i : Nat) : Nat := i * (47 - i) / 2

/-- The first field of pair `p`: the last row that starts at or before `p`. -/
def rowOf (p : Nat) : Nat := ((List.range 24).filter fun i => rowStart i ≤ p).length - 1

/-- The second field of pair `p`: its place in its row, past the diagonal. -/
def colOf (p : Nat) : Nat := p - rowStart (rowOf p) + rowOf p + 1

theorem pair_lt : ∀ p : Fin 276, rowOf p.val < 24 ∧ colOf p.val < 24 := by decide +kernel

/-- Pair `p`'s first field. -/
def pr (p : Fin 276) : Fin 24 := ⟨rowOf p.val, (pair_lt p).1⟩
/-- Pair `p`'s second field. -/
def pc (p : Fin 276) : Fin 24 := ⟨colOf p.val, (pair_lt p).2⟩

/-! ## The network on one sample -/

/-- The word both programs rectify against and start their sums from: 0. -/
def zero : EReal := Ideal.ofBits .f32 0x00000000#32
/-- The word both programs start their maximum from: -∞. -/
def negInf : EReal := Ideal.ofBits .f32 0xFF800000#32

/-- The pairwise products of a sample's fields. -/
def inner (xr : Fin 24 → Fin 64 → EReal) (p : Fin 276) (d : Fin 64) : EReal := xr (pr p) d * xr (pc p) d

/-- The attention layer on the products, rectified. -/
def hidden (inn : Fin 276 → Fin 64 → EReal) (Wa : Fin 64 → Fin 64 → EReal) (ba : Fin 64 → EReal) (p : Fin 276) (a : Fin 64) : EReal :=
  max ((∑ d : Fin 64, inn p d * Wa d a) + ba a) zero

/-- A pair's attention logit. -/
def logit (hid : Fin 276 → Fin 64 → EReal) (Wp : Fin 64 → EReal) (bp : EReal) (p : Fin 276) : EReal :=
  (∑ a : Fin 64, hid p a * Wp a) + bp

/-- The largest logit (and at least -∞). -/
def rowMax (l : Fin 276 → EReal) : EReal := max negInf ((Finset.univ : Finset (Fin 276)).fold max negInf l)

/-- A pair's unnormalised softmax weight. -/
def expo (l : Fin 276 → EReal) (p : Fin 276) : EReal := Ideal.exp (l p - rowMax l)

/-- A pair's softmax weight. -/
def attn (l : Fin 276 → EReal) (p : Fin 276) : EReal := Ideal.div (expo l p) (∑ q : Fin 276, expo l q)

/-- The products pooled over the pairs by their weights. -/
def pooled (l : Fin 276 → EReal) (inn : Fin 276 → Fin 64 → EReal) (d : Fin 64) : EReal := ∑ p : Fin 276, attn l p * inn p d

/-- The final linear layer. -/
def final (po : Fin 64 → EReal) (Wfc : Fin 64 → EReal) (bfc : EReal) : EReal := (∑ d : Fin 64, po d * Wfc d) + bfc

/-- From the logits and the products to the output. -/
def tail (l : Fin 276 → EReal) (inn : Fin 276 → Fin 64 → EReal) (Wfc : Fin 64 → EReal) (bfc : EReal) : EReal :=
  final (pooled l inn) Wfc bfc

/-- The network from the pairwise products on. -/
def rowOutI (inn : Fin 276 → Fin 64 → EReal) (Wa : Fin 64 → Fin 64 → EReal) (ba : Fin 64 → EReal) (Wp : Fin 64 → EReal) (bp : EReal)
    (Wfc : Fin 64 → EReal) (bfc : EReal) : EReal :=
  tail (logit (hidden inn Wa ba) Wp bp) inn Wfc bfc

/-- The network on one sample. -/
def rowOut (xr : Fin 24 → Fin 64 → EReal) (Wa : Fin 64 → Fin 64 → EReal) (ba : Fin 64 → EReal) (Wp : Fin 64 → EReal) (bp : EReal)
    (Wfc : Fin 64 → EReal) (bfc : EReal) : EReal :=
  rowOutI (inner xr) Wa ba Wp bp Wfc bfc

end AFM

end
-- ==== Proof.KerInner.lean ====
/-
  The kernel body on one block: the 276 slices-and-products it stacks along the pair axis are, entry (r, p, d), the block's sample r
  at field `pr p` times the same at field `pc p`, feature d; and what the body leaves in the output block is the later stages
  (`kerRest`) of that block of products.
-/
import proofs.«117869_j75273596829809_1_alg».proof.Proof.KernelIdealFrame
import proofs.«117869_j75273596829809_1_alg».proof.Proof.KerTerm
import proofs.«117869_j75273596829809_1_alg».proof.Proof.Spec
import Idealize.ShloMosaic.Lib.ValueIdx
import Idealize.ShloMosaic.Lib.ValueLayout
import Idealize.ShloMosaic.Lib.Pipeline.Value

noncomputable section

namespace Cert.KernelIdeal.KerValue

open Cert.KernelIdeal Cert.KernelIdeal.KerTerm Idealize.ShloMosaic Idealize.ShloMosaic.ValueIdx
open Cert.KernelIdeal.Gen

/-- One field of the 24 is a block of the sample array: the slice at field `i` is in range when `i < 24`. -/
theorem slices_field (i : Nat) (hi : i < 24) : S128x24x64.Slices ![0, i, 0] S128x1x64 :=
  ⟨rfl, fun a => by
    match a with
    | ⟨0, _⟩ => exact Nat.le_refl _
    | ⟨1, _⟩ => exact hi
    | ⟨2, _⟩ => exact Nat.le_refl _⟩

/-- The product of fields `i` and `j` of every sample, as a [128, 1, 64] piece. -/
def prodPiece (x0 : Vec Ideal S128x24x64 .f32) (i j : Nat) (hi : i < 24) (hj : j < 24) : FVec Ideal S128x1x64 .f32 :=
  shapeCast S128x1x64
    (mulf (shapeCast S128x64 (extractStridedSlice S128x1x64 ![0, i, 0] x0 (slices_field i hi)) shapeCasts_S128x1x64_S128x64)
      (shapeCast S128x64 (extractStridedSlice S128x1x64 ![0, j, 0] x0 (slices_field j hj)) shapeCasts_S128x1x64_S128x64))
    shapeCasts_S128x64_S128x1x64

/-- A field's slice, with its unit axis dropped, at `(r, d)`: the sample array at `(r, i, d)`. -/
theorem field_apply (x0 : Vec Ideal S128x24x64 .f32) (i : Nat) (hi : i < 24) (r : Fin 128) (d : Fin 64) :
    shapeCast S128x64 (extractStridedSlice S128x1x64 ![0, i, 0] x0 (slices_field i hi)) shapeCasts_S128x1x64_S128x64 (ix2 r d)
      = x0 (ix3 r ⟨i, hi⟩ d) := by
  rw [shapeCast_apply _ _ (ix2 r d) (ix3 r (0 : Fin 1) d) (by
    rw [Shape.rowMajor_val_three, Shape.rowMajor_val_two]
    show (r.val * 1 + 0) * 64 + d.val = r.val * 64 + d.val
    omega)]
  exact slice3_axis1_apply i x0 (slices_field i hi) r 0 d ⟨i, hi⟩ rfl

/-- The piece at `(r, 0, d)`: the product of the two fields' entries. -/
theorem prodPiece_apply (x0 : Vec Ideal S128x24x64 .f32) (i j : Nat) (hi : i < 24) (hj : j < 24) (r : Fin 128) (d : Fin 64) :
    prodPiece x0 i j hi hj (ix3 r (0 : Fin 1) d) = x0 (ix3 r ⟨i, hi⟩ d) * x0 (ix3 r ⟨j, hj⟩ d) := by
  unfold prodPiece
  rw [shapeCast_apply _ _ (ix3 r (0 : Fin 1) d) (ix2 r d) (by
    rw [Shape.rowMajor_val_three, Shape.rowMajor_val_two]
    show r.val * 64 + d.val = (r.val * 1 + 0) * 64 + d.val
    omega)]
  rw [mulf_apply, field_apply, field_apply]

/-- The piece the pair axis holds at `k`: the product of the pair's two fields. -/
def pieceOf (x0 : Vec Ideal S128x24x64 .f32) (k : Fin 276) : FVec Ideal S128x1x64 .f32 :=
  prodPiece x0 (AFM.rowOf k.val) (AFM.colOf k.val) (AFM.pair_lt k).1 (AFM.pair_lt k).2

/-- Piece k at (r, 0, d): sample r at pair k's two fields, feature d, multiplied. -/
theorem pieceOf_apply (x0 : Vec Ideal S128x24x64 .f32) (p : Fin 276) (r : Fin 128) (d : Fin 64) :
    pieceOf x0 p (ix3 r (0 : Fin 1) d) = x0 (ix3 r (AFM.pr p) d) * x0 (ix3 r (AFM.pc p) d) :=
  prodPiece_apply x0 _ _ _ _ r d

/-- 276 unit pieces stacked along the pair axis, read at `(r, p, d)`: piece `p` at `(r, 0, d)`. -/
theorem stack_apply (g : Fin 276 → FVec Ideal S128x1x64 .f32)
    (L : List ((s : Shape) × (s.Idx → Ideal .f32)))
    (h : Shape.Concatenates (L.map (·.1)) S128x276x64 1)
    (hL : L = List.ofFn fun k : Fin 276 => (⟨S128x1x64, g k⟩ : (s : Shape) × (s.Idx → Ideal .f32)))
    (r : Fin 128) (p : Fin 276) (d : Fin 64) :
    concatenate S128x276x64 1 L h (ix3 r p d) = g p (ix3 r (0 : Fin 1) d) := by
  subst hL
  refine concatenate_ofFn_unit_apply (t := S128x276x64) (s₁ := S128x1x64) (1 : Fin 3) g h rfl rfl (ix3 r p d) p rfl (ix3 r (0 : Fin 1) d) ?_
  intro b hb
  match b with
  | ⟨0, _⟩ => rfl
  | ⟨1, _⟩ => exact absurd rfl hb
  | ⟨2, _⟩ => rfl

/-- A rectangle at offsets zero, in ranks 3, 2 and 1: the loads and the one store go through whole buffers. -/
theorem zeros3 : (![0, 0, 0] : Fin 3 → Nat) = fun _ => 0 :=
  funext fun a => by match a with | ⟨0, _⟩ => rfl | ⟨1, _⟩ => rfl | ⟨2, _⟩ => rfl
theorem zeros2 : (![0, 0] : Fin 2 → Nat) = fun _ => 0 :=
  funext fun a => by match a with | ⟨0, _⟩ => rfl | ⟨1, _⟩ => rfl
theorem zeros1 : (![0] : Fin 1 → Nat) = fun _ => 0 :=
  funext fun a => by match a with | ⟨0, _⟩ => rfl

/-- If the rectified layer's value is the stage `kerHidden` of a block `T1` of products, the body's last two payloads on them are the
    later stages of `T1`; a property of `T1` is carried along. -/
theorem close_of (P : FVec Ideal S128x276x64 .f32 → Prop) (T1 : FVec Ideal S128x276x64 .f32) (T2 : FVec Ideal S35328x64 .f32)
    (x1 : Vec Ideal S64x64 .f32) (x2 : Vec Ideal S64 .f32) (x3 : Vec Ideal S64x1 .f32)
    (x4 : Vec Ideal S1 .f32) (x5 : Vec Ideal S64x1 .f32) (x6 : Vec Ideal S1 .f32)
    (h2 : T2 = kerHidden T1 x1 x2) (hP : P T1) :
    ∃ inn : FVec Ideal S128x276x64 .f32, P inn ∧ k0_pay1 x6 (k0_pay515 T1 T2 x3 x4 x5) = kerRest inn x1 x2 x3 x4 x5 x6 :=
  ⟨T1, hP, by subst h2; rfl⟩

set_option maxHeartbeats 1000000 in
/-- What the body leaves in the output block is the later stages of ONE block of products, and that block's entry (r, p, d) is the
    block's sample r at pair p's two fields, feature d, multiplied. -/
theorem out_eq (x0 : Vec Ideal S128x24x64 .f32) (x1 : Vec Ideal S64x64 .f32) (x2 : Vec Ideal S64 .f32) (x3 : Vec Ideal S64x1 .f32)
    (x4 : Vec Ideal S1 .f32) (x5 : Vec Ideal S64x1 .f32) (x6 : Vec Ideal S1 .f32) :
    ∃ inn : FVec Ideal S128x276x64 .f32,
      (∀ (r : Fin 128) (p : Fin 276) (d : Fin 64), inn (ix3 r p d) = x0 (ix3 r (AFM.pr p) d) * x0 (ix3 r (AFM.pc p) d)) ∧
      Cert.KernelIdeal.GenP.out0_7 x0 x1 x2 x3 x4 x5 x6 = kerRest inn x1 x2 x3 x4 x5 x6 := by
  unfold Cert.KernelIdeal.GenP.out0_7
  rw [View.canon_unit_zero zeros2]
  simp only [View.ld_unit_zero (S := S128x24x64) zeros3, View.ld_unit_zero (S := S64x64) zeros2,
    View.ld_unit_zero (S := S64) zeros1, View.ld_unit_zero (S := S64x1) zeros2, View.ld_unit_zero (S := S1) zeros1]
  refine close_of _ _ _ x1 x2 x3 x4 x5 x6 ?h2 ?hP
  case h2 =>
    rfl
  case hP =>
    intro r p d
    unfold k0_pay513
    refine (stack_apply (pieceOf x0) _ _ ?hL r p d).trans (pieceOf_apply x0 p r d)
    rfl

end Cert.KernelIdeal.KerValue

end
-- ==== Proof.KerLogits.lean ====
/-
  The kernel block's attention logits read at an index: entry (r, p, 0) is pair p's logit of the block's sample r.

  The block of products [128, 276, 64] is flattened row-major to 35328 rows (sample r's pair p is row r · 276 + p); each of
  the two matrix products, into a zero accumulator, is at an entry the sum over its one contracted axis of 64; each bias is
  one row broadcast over the 35328 rows; the logits' column is reshaped back to [128, 276, 1].
-/
import proofs.«117869_j75273596829809_1_alg».proof.Proof.KerTerm
import proofs.«117869_j75273596829809_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerValue

open Cert.KernelIdeal Cert.KernelIdeal.Gen Cert.KernelIdeal.KerTerm Idealize.ShloMosaic Idealize.ShloMosaic.ValueIdx

/-! ## The two matrix products' contraction: one axis of 64 -/

/-- The attention layer's product contracts one axis … -/
theorem dotA_rank : dot_S35328x64_S64x64_S35328x64_1_0_0_1_n_n.contr.rank = 1 := rfl
/-- … of extent 64. -/
theorem dotA_size : dot_S35328x64_S64x64_S35328x64_1_0_0_1_n_n.contr.size ⟨0, by rw [dotA_rank]; exact Nat.one_pos⟩ = 64 := rfl

/-- Its left operand is read at the result's row … -/
theorem dotA_lhs0 (j : S35328x64.Idx) (k : dot_S35328x64_S64x64_S35328x64_1_0_0_1_n_n.contr.Idx) :
    (dot_S35328x64_S64x64_S35328x64_1_0_0_1_n_n.lhsIdx j k 0).val = (j 0).val := rfl
/-- … and the contraction coordinate; -/
theorem dotA_lhs1 (j : S35328x64.Idx) (k : dot_S35328x64_S64x64_S35328x64_1_0_0_1_n_n.contr.Idx) :
    (dot_S35328x64_S64x64_S35328x64_1_0_0_1_n_n.lhsIdx j k 1).val = (k ⟨0, by rw [dotA_rank]; exact Nat.one_pos⟩).val := rfl
/-- its right operand at the contraction coordinate … -/
theorem dotA_rhs0 (j : S35328x64.Idx) (k : dot_S35328x64_S64x64_S35328x64_1_0_0_1_n_n.contr.Idx) :
    (dot_S35328x64_S64x64_S35328x64_1_0_0_1_n_n.rhsIdx j k 0).val = (k ⟨0, by rw [dotA_rank]; exact Nat.one_pos⟩).val := rfl
/-- … and the result's column. -/
theorem dotA_rhs1 (j : S35328x64.Idx) (k : dot_S35328x64_S64x64_S35328x64_1_0_0_1_n_n.contr.Idx) :
    (dot_S35328x64_S64x64_S35328x64_1_0_0_1_n_n.rhsIdx j k 1).val = (j 1).val := rfl

/-- The logits' product contracts one axis … -/
theorem dotP_rank : dot_S35328x64_S64x1_S35328x1_1_0_0_1_n_n.contr.rank = 1 := rfl
/-- … of extent 64. -/
theorem dotP_size : dot_S35328x64_S64x1_S35328x1_1_0_0_1_n_n.contr.size ⟨0, by rw [dotP_rank]; exact Nat.one_pos⟩ = 64 := rfl

/-- Its left operand is read at the result's row … -/
theorem dotP_lhs0 (j : S35328x1.Idx) (k : dot_S35328x64_S64x1_S35328x1_1_0_0_1_n_n.contr.Idx) :
    (dot_S35328x64_S64x1_S35328x1_1_0_0_1_n_n.lhsIdx j k 0).val = (j 0).val := rfl
/-- … and the contraction coordinate; -/
theorem dotP_lhs1 (j : S35328x1.Idx) (k : dot_S35328x64_S64x1_S35328x1_1_0_0_1_n_n.contr.Idx) :
    (dot_S35328x64_S64x1_S35328x1_1_0_0_1_n_n.lhsIdx j k 1).val = (k ⟨0, by rw [dotP_rank]; exact Nat.one_pos⟩).val := rfl
/-- its right operand at the contraction coordinate … -/
theorem dotP_rhs0 (j : S35328x1.Idx) (k : dot_S35328x64_S64x1_S35328x1_1_0_0_1_n_n.contr.Idx) :
    (dot_S35328x64_S64x1_S35328x1_1_0_0_1_n_n.rhsIdx j k 0).val = (k ⟨0, by rw [dotP_rank]; exact Nat.one_pos⟩).val := rfl
/-- … and the result's column. -/
theorem dotP_rhs1 (j : S35328x1.Idx) (k : dot_S35328x64_S64x1_S35328x1_1_0_0_1_n_n.contr.Idx) :
    (dot_S35328x64_S64x1_S35328x1_1_0_0_1_n_n.rhsIdx j k 1).val = (j 1).val := rfl

/-! ## The two matrix products read at an entry -/

/-- The attention layer's product into a zero accumulator, at (i, a): the sum over d of L(i, d) · R(d, a). -/
theorem matmulA_apply (L : FVec Ideal S35328x64 .f32) (R : Vec Ideal S64x64 .f32) (i : Fin 35328) (a : Fin 64) :
    matmul (φ₂ := .f32) dot_S35328x64_S64x64_S35328x64_1_0_0_1_n_n none L R (constant S35328x64 .f32 0x00000000#32) (ix2 i a)
      = ∑ d : Fin 64, L (ix2 i d) * R (ix2 d a) := by
  simp only [matmul]
  rw [Ideal.matmul_constant_zero_apply,
    ← Equiv.sum_comp (contrEquiv1 dot_S35328x64_S64x64_S35328x64_1_0_0_1_n_n 64 dotA_rank dotA_size).symm]
  refine Finset.sum_congr rfl fun d _ => ?_
  have hl : dot_S35328x64_S64x64_S35328x64_1_0_0_1_n_n.lhsIdx (ix2 i a)
      ((contrEquiv1 dot_S35328x64_S64x64_S35328x64_1_0_0_1_n_n 64 dotA_rank dotA_size).symm d) = ix2 i d :=
    Shape.idx_ext₂ (dotA_lhs0 _ _) ((dotA_lhs1 _ _).trans (contrEquiv1_symm_val _ 64 dotA_rank dotA_size d))
  have hr : dot_S35328x64_S64x64_S35328x64_1_0_0_1_n_n.rhsIdx (ix2 i a)
      ((contrEquiv1 dot_S35328x64_S64x64_S35328x64_1_0_0_1_n_n 64 dotA_rank dotA_size).symm d) = ix2 d a :=
    Shape.idx_ext₂ ((dotA_rhs0 _ _).trans (contrEquiv1_symm_val _ 64 dotA_rank dotA_size d)) (dotA_rhs1 _ _)
  rw [hl, hr]

/-- The logits' product into a zero accumulator, at (i, 0): the sum over a of L(i, a) · R(a, 0). -/
theorem matmulP_apply (L : FVec Ideal S35328x64 .f32) (R : Vec Ideal S64x1 .f32) (i : Fin 35328) (c : Fin 1) :
    matmul (φ₂ := .f32) dot_S35328x64_S64x1_S35328x1_1_0_0_1_n_n none L R (constant S35328x1 .f32 0x00000000#32) (ix2 i c)
      = ∑ a : Fin 64, L (ix2 i a) * R (ix2 a c) := by
  simp only [matmul]
  rw [Ideal.matmul_constant_zero_apply,
    ← Equiv.sum_comp (contrEquiv1 dot_S35328x64_S64x1_S35328x1_1_0_0_1_n_n 64 dotP_rank dotP_size).symm]
  refine Finset.sum_congr rfl fun a _ => ?_
  have hl : dot_S35328x64_S64x1_S35328x1_1_0_0_1_n_n.lhsIdx (ix2 i c)
      ((contrEquiv1 dot_S35328x64_S64x1_S35328x1_1_0_0_1_n_n 64 dotP_rank dotP_size).symm a) = ix2 i a :=
    Shape.idx_ext₂ (dotP_lhs0 _ _) ((dotP_lhs1 _ _).trans (contrEquiv1_symm_val _ 64 dotP_rank dotP_size a))
  have hr : dot_S35328x64_S64x1_S35328x1_1_0_0_1_n_n.rhsIdx (ix2 i c)
      ((contrEquiv1 dot_S35328x64_S64x1_S35328x1_1_0_0_1_n_n 64 dotP_rank dotP_size).symm a) = ix2 a c :=
    Shape.idx_ext₂ ((dotP_rhs0 _ _).trans (contrEquiv1_symm_val _ 64 dotP_rank dotP_size a)) (dotP_rhs1 _ _)
  rw [hl, hr]

/-! ## The two reshapes and the two biases read at an entry -/

/-- Sample r's pair p is row r · 276 + p of the 35328 rows. -/
theorem row_lt (r : Fin 128) (p : Fin 276) : r.val * 276 + p.val < 35328 := by
  have := r.isLt; have := p.isLt; omega

/-- The block of products flattened to 35328 rows: row r · 276 + p, column d is entry (r, p, d). -/
theorem flat_apply (inn : FVec Ideal S128x276x64 .f32) (r : Fin 128) (p : Fin 276) (d : Fin 64) :
    shapeCast S35328x64 inn shapeCasts_S128x276x64_S35328x64 (ix2 (⟨r.val * 276 + p.val, row_lt r p⟩ : Fin 35328) d)
      = inn (ix3 r p d) :=
  shapeCast_apply inn _ _ _ (by
    rw [Shape.rowMajor_val_three, Shape.rowMajor_val_two]
    rfl)

/-- The 35328 logits back in [128, 276, 1]: entry (r, p, 0) is row r · 276 + p. -/
theorem unflat_apply (x : FVec Ideal S35328x1 .f32) (r : Fin 128) (p : Fin 276) :
    shapeCast S128x276x1 x shapeCasts_S35328x1_S128x276x1 (ix3 r p (0 : Fin 1))
      = x (ix2 (⟨r.val * 276 + p.val, row_lt r p⟩ : Fin 35328) (0 : Fin 1)) :=
  shapeCast_apply x _ _ _ (by
    rw [Shape.rowMajor_val_three, Shape.rowMajor_val_two]
    rfl)

/-- The attention layer's bias, one row broadcast over the 35328 rows: column a is ba a. -/
theorem biasA_apply (ba : Vec Ideal S64 .f32) (i : Fin 35328) (a : Fin 64) :
    broadcastTo S35328x64 (shapeCast S1x64 ba shapeCasts_S64_S1x64) broadcasts_S1x64_S35328x64 (ix2 i a) = ba (ix1 a) := by
  rw [broadcastTo_1b_ab_apply, shapeCast_a_1a_apply]

/-- The logits' bias, one entry broadcast over the 35328 rows. -/
theorem biasP_apply (bp : Vec Ideal S1 .f32) (i : Fin 35328) (c : Fin 1) :
    broadcastTo S35328x1 (shapeCast S1x1 bp shapeCasts_S1_S1x1) broadcasts_S1x1_S35328x1 (ix2 i c) = bp (ix1 c) := by
  rw [broadcastTo_1b_ab_apply, shapeCast_a_1a_apply]

/-! ## The rectified attention layer and the logits -/

/-- Row r · 276 + p, column a of the block's rectified layer is sample r's hidden p a. -/
theorem kerHidden_apply (inn : FVec Ideal S128x276x64 .f32) (Wa : Vec Ideal S64x64 .f32) (ba : Vec Ideal S64 .f32)
    (r : Fin 128) (p : Fin 276) (a : Fin 64) :
    kerHidden inn Wa ba (ix2 (⟨r.val * 276 + p.val, row_lt r p⟩ : Fin 35328) a)
      = AFM.hidden (fun p d => inn (ix3 r p d)) (fun d a => Wa (ix2 d a)) (fun a => ba (ix1 a)) p a := by
  unfold kerHidden
  rw [maximumf_apply, addf_apply, broadcast_apply, matmulA_apply, biasA_apply]
  simp only [flat_apply]
  rfl

/-- Entry (r, p, 0) of the block's logits is pair p's logit of the block's sample r. -/
theorem kerLogits_apply (inn : FVec Ideal S128x276x64 .f32) (Wa : Vec Ideal S64x64 .f32) (ba : Vec Ideal S64 .f32)
    (Wp : Vec Ideal S64x1 .f32) (bp : Vec Ideal S1 .f32) (r : Fin 128) (p : Fin 276) :
    kerLogits (kerHidden inn Wa ba) Wp bp (ix3 r p (0 : Fin 1))
      = AFM.logit (AFM.hidden (fun p d => inn (ix3 r p d)) (fun d a => Wa (ix2 d a)) (fun a => ba (ix1 a)))
          (fun a => Wp (ix2 a (0 : Fin 1))) (bp (ix1 (0 : Fin 1))) p := by
  unfold kerLogits
  rw [unflat_apply, addf_apply, matmulP_apply, biasP_apply]
  simp only [kerHidden_apply]
  rfl

end Cert.KernelIdeal.KerValue

end
-- ==== Proof.KerTail.lean ====
/-
  The kernel block from the logits on, read at an index: entry (r, 0) is the softmax-pooled products of the block's sample r through the final layer.
-/
import proofs.«117869_j75273596829809_1_alg».proof.Proof.KerTerm
import proofs.«117869_j75273596829809_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KerValue

open Cert.KernelIdeal Cert.KernelIdeal.KerTerm Idealize.ShloMosaic Idealize.ShloMosaic.ValueIdx

namespace Tail

/-! ## Indices -/

/-- Over the result index (r, 0) of a reduction of [128, 276, 1] along the pairs, the source index with pair p inserted is (r, p, 0). -/
theorem lift_pairs_one (r : Fin 128) (p : Fin 276) :
    Gen.reduces_S128x276x1_S128x1.lift (ix2 r (0 : Fin 1)) p = ix3 r p (0 : Fin 1) := by
  funext c
  match c with
  | ⟨0, _⟩ => rfl
  | ⟨1, _⟩ => rfl
  | ⟨2, _⟩ => rfl

/-- Over the result index (r, d) of a reduction of [128, 276, 64] along the pairs, the source index with pair p inserted is (r, p, d). -/
theorem lift_pairs_feat (r : Fin 128) (d : Fin 64) (p : Fin 276) :
    Gen.reduces_S128x276x64_S128x64.lift (ix2 r d) p = ix3 r p d := by
  funext c
  match c with
  | ⟨0, _⟩ => rfl
  | ⟨1, _⟩ => rfl
  | ⟨2, _⟩ => rfl

/-- A column [128, 1] viewed as [128, 1, 1] and spread over the pairs reads, at (r, p, 0), the column's entry (r, 0). -/
theorem spread_col_apply (m : FVec Ideal S128x1 .f32) (r : Fin 128) (p : Fin 276) :
    broadcastTo S128x276x1 (shapeCast S128x1x1 m Gen.shapeCasts_S128x1_S128x1x1) Gen.broadcasts_S128x1x1_S128x276x1
        (ix3 r p (0 : Fin 1))
      = m (ix2 r (0 : Fin 1)) := by
  rw [broadcastTo_apply _ _ _ (ix3 r (0 : Fin 1) (0 : Fin 1)) (fun a => by
    match a with
    | ⟨0, _⟩ => rfl
    | ⟨1, _⟩ => rfl
    | ⟨2, _⟩ => rfl)]
  exact shapeCast_apply _ _ _ (ix2 r (0 : Fin 1)) (by
    rw [Shape.rowMajor_val_two, Shape.rowMajor_val_three]
    show r.val * 1 + 0 = (r.val * 1 + 0) * 1 + 0
    omega)

/-! ## The softmax over the pairs -/

/-- Each sample's largest logit (and at least -∞), as a column [128, 1]. -/
def kerMax (l : FVec Ideal S128x276x1 .f32) : FVec Ideal S128x1 .f32 :=
  maximumf (broadcast S128x1 (Scalar.ofBits .f32 0xFF800000#32))
    (multiReduction .maximumf [1] S128x1 l 0xFF800000#32 Gen.reduces_S128x276x1_S128x1 (.inl rfl) rfl)

/-- The kernel's maximum over the pairs, at sample r: the fold of max from -∞ over the sample's logits, and -∞. -/
theorem kerMax_apply (l : FVec Ideal S128x276x1 .f32) (r : Fin 128) :
    kerMax l (ix2 r (0 : Fin 1)) = AFM.rowMax (fun p => l (ix3 r p (0 : Fin 1))) := by
  unfold kerMax
  rw [maximumf_apply, broadcast_apply]
  refine congrArg (max AFM.negInf) ?_
  refine (Ideal.multiReduction_maximumf_single l 0xFF800000#32 Gen.reduces_S128x276x1_S128x1 (.inl rfl) rfl (ix2 r (0 : Fin 1))).trans ?_
  show (Finset.univ : Finset (Fin 276)).fold max AFM.negInf (l ∘ Gen.reduces_S128x276x1_S128x1.lift (ix2 r (0 : Fin 1))) = _
  refine congrArg ((Finset.univ : Finset (Fin 276)).fold max AFM.negInf) (funext fun p => ?_)
  exact congrArg l (lift_pairs_one r p)

/-- The unnormalised softmax weights are the exponential of the logits less the column of maxima spread over the pairs. -/
theorem kerExp_eq (l : FVec Ideal S128x276x1 .f32) :
    kerExp l = exp (subf l (broadcastTo S128x276x1 (shapeCast S128x1x1 (kerMax l) Gen.shapeCasts_S128x1_S128x1x1)
      Gen.broadcasts_S128x1x1_S128x276x1)) := rfl

/-- The kernel's unnormalised softmax weight of pair p of sample r. -/
theorem kerExp_apply (l : FVec Ideal S128x276x1 .f32) (r : Fin 128) (p : Fin 276) :
    kerExp l (ix3 r p (0 : Fin 1)) = AFM.expo (fun p => l (ix3 r p (0 : Fin 1))) p := by
  rw [kerExp_eq]
  show Ideal.exp (subf l _ (ix3 r p (0 : Fin 1))) = _
  rw [subf_apply, spread_col_apply, kerMax_apply]
  rfl

/-- Each sample's sum of a block [128, 276, 1] over the pairs. -/
theorem sum_pairs_apply (e : FVec Ideal S128x276x1 .f32) (r : Fin 128) :
    multiReduction .add [1] S128x1 e 0x00000000#32 Gen.reduces_S128x276x1_S128x1 (.inl rfl) rfl (ix2 r (0 : Fin 1))
      = ∑ q : Fin 276, e (ix3 r q (0 : Fin 1)) := by
  refine (Ideal.multiReduction_add_single e 0x00000000#32 Gen.reduces_S128x276x1_S128x1 (.inl rfl) rfl (ix2 r (0 : Fin 1))).trans ?_
  exact Finset.sum_congr rfl fun q _ => congrArg e (lift_pairs_one r q)

/-- The kernel's softmax weight of pair p of sample r. -/
theorem kerAttn_apply (l : FVec Ideal S128x276x1 .f32) (r : Fin 128) (p : Fin 276) :
    kerAttn (kerExp l) (ix3 r p (0 : Fin 1)) = AFM.attn (fun p => l (ix3 r p (0 : Fin 1))) p := by
  unfold kerAttn
  rw [divf_apply, spread_col_apply, sum_pairs_apply, kerExp_apply]
  exact congrArg (Ideal.div _) (Finset.sum_congr rfl fun q _ => kerExp_apply l r q)

/-! ## The pooling over the pairs -/

/-- The weighted products at (r, p, d): pair p's softmax weight, spread over the features, times the product. -/
theorem weighted_apply (l : FVec Ideal S128x276x1 .f32) (inn : FVec Ideal S128x276x64 .f32) (r : Fin 128) (p : Fin 276) (d : Fin 64) :
    mulf (broadcastTo S128x276x64 (kerAttn (kerExp l)) Gen.broadcasts_S128x276x1_S128x276x64) inn (ix3 r p d)
      = AFM.attn (fun p => l (ix3 r p (0 : Fin 1))) p * inn (ix3 r p d) := by
  rw [mulf_apply, broadcastTo_apply _ _ _ (ix3 r p (0 : Fin 1)) (fun a => by
    match a with
    | ⟨0, _⟩ => rfl
    | ⟨1, _⟩ => rfl
    | ⟨2, _⟩ => rfl), kerAttn_apply]

/-- The kernel's pooled products of sample r at feature d. -/
theorem kerPooled_apply (l : FVec Ideal S128x276x1 .f32) (inn : FVec Ideal S128x276x64 .f32) (r : Fin 128) (d : Fin 64) :
    kerPooled l inn (ix2 r d)
      = AFM.pooled (fun p => l (ix3 r p (0 : Fin 1))) (fun p d => inn (ix3 r p d)) d := by
  unfold kerPooled AFM.pooled
  refine (Ideal.multiReduction_add_single
    (mulf (broadcastTo S128x276x64 (kerAttn (kerExp l)) Gen.broadcasts_S128x276x1_S128x276x64) inn)
    0x00000000#32 Gen.reduces_S128x276x64_S128x64 (.inl rfl) rfl (ix2 r d)).trans ?_
  exact Finset.sum_congr rfl fun p _ => (congrArg _ (lift_pairs_feat r d p)).trans (weighted_apply l inn r p d)

/-! ## The final layer -/

/-- The product's left operand index on axis 0 (a free axis) is the result's row. -/
theorem lhs_fc_0 (i : S128x1.Idx) (q : dot_S128x64_S64x1_S128x1_1_0_0_1_n_n.contr.Idx) :
    (dot_S128x64_S64x1_S128x1_1_0_0_1_n_n.lhsIdx i q 0).val = (i 0).val := by
  unfold DotDims.lhsIdx
  rw [dif_neg (show ¬(0 : Fin S128x64.rank) ∈ dot_S128x64_S64x1_S128x1_1_0_0_1_n_n.lhsBatch by decide),
    dif_pos (show (0 : Fin S128x64.rank) ∈ dot_S128x64_S64x1_S128x1_1_0_0_1_n_n.lhsNonContracting by decide)]
  rfl

/-- The product's left operand index on axis 1 (the contracted axis) is the contraction's coordinate. -/
theorem lhs_fc_1 (i : S128x1.Idx) (q : dot_S128x64_S64x1_S128x1_1_0_0_1_n_n.contr.Idx) :
    (dot_S128x64_S64x1_S128x1_1_0_0_1_n_n.lhsIdx i q 1).val = (q ⟨0, by decide⟩).val :=
  dot_S128x64_S64x1_S128x1_1_0_0_1_n_n.lhsIdx_val_of_single rfl i q

/-- The product's right operand index on axis 0 (the contracted axis) is the contraction's coordinate. -/
theorem rhs_fc_0 (i : S128x1.Idx) (q : dot_S128x64_S64x1_S128x1_1_0_0_1_n_n.contr.Idx) :
    (dot_S128x64_S64x1_S128x1_1_0_0_1_n_n.rhsIdx i q 0).val = (q ⟨0, by decide⟩).val :=
  dot_S128x64_S64x1_S128x1_1_0_0_1_n_n.rhsIdx_val_of_single rfl i q

/-- The product's right operand index on axis 1 (a free axis) is the result's column. -/
theorem rhs_fc_1 (i : S128x1.Idx) (q : dot_S128x64_S64x1_S128x1_1_0_0_1_n_n.contr.Idx) :
    (dot_S128x64_S64x1_S128x1_1_0_0_1_n_n.rhsIdx i q 1).val = (i 1).val := by
  unfold DotDims.rhsIdx
  rw [dif_neg (show ¬(1 : Fin S64x1.rank) ∈ dot_S128x64_S64x1_S128x1_1_0_0_1_n_n.rhsBatch by decide),
    dif_pos (show (1 : Fin S64x1.rank) ∈ dot_S128x64_S64x1_S128x1_1_0_0_1_n_n.rhsNonContracting by decide)]
  rfl

/-- The final layer's matrix product into a zero accumulator, at (r, 0): the sum over the 64 features. -/
theorem fc_matmul_apply (po : FVec Ideal S128x64 .f32) (Wfc : FVec Ideal S64x1 .f32) (r : Fin 128) :
    matmul dot_S128x64_S64x1_S128x1_1_0_0_1_n_n none po Wfc (constant S128x1 .f32 0x00000000#32) (ix2 r (0 : Fin 1))
      = ∑ d : Fin 64, po (ix2 r d) * Wfc (ix2 d (0 : Fin 1)) := by
  simp only [matmul]
  rw [Ideal.matmul_constant_zero_apply, ← Equiv.sum_comp (contrEquiv1 dot_S128x64_S64x1_S128x1_1_0_0_1_n_n 64 rfl rfl).symm]
  refine Finset.sum_congr rfl fun k _ => ?_
  have hk := contrEquiv1_symm_val dot_S128x64_S64x1_S128x1_1_0_0_1_n_n 64 rfl rfl k
  have el : dot_S128x64_S64x1_S128x1_1_0_0_1_n_n.lhsIdx (ix2 r (0 : Fin 1)) ((contrEquiv1 dot_S128x64_S64x1_S128x1_1_0_0_1_n_n 64 rfl rfl).symm k) = ix2 r k :=
    funext fun a => Fin.ext (by
      match a with
      | ⟨0, _⟩ => exact lhs_fc_0 _ _
      | ⟨1, _⟩ => exact (lhs_fc_1 _ _).trans hk)
  have er : dot_S128x64_S64x1_S128x1_1_0_0_1_n_n.rhsIdx (ix2 r (0 : Fin 1)) ((contrEquiv1 dot_S128x64_S64x1_S128x1_1_0_0_1_n_n 64 rfl rfl).symm k) = ix2 k (0 : Fin 1) :=
    funext fun a => Fin.ext (by
      match a with
      | ⟨0, _⟩ => exact (rhs_fc_0 _ _).trans hk
      | ⟨1, _⟩ => exact rhs_fc_1 _ _)
  rw [el, er]

/-- The bias [1] viewed as [1, 1] and spread over the samples reads its one entry everywhere. -/
theorem fc_bias_apply (bfc : FVec Ideal S1 .f32) (r : Fin 128) :
    broadcastTo S128x1 (shapeCast S1x1 bfc Gen.shapeCasts_S1_S1x1) Gen.broadcasts_S1x1_S128x1 (ix2 r (0 : Fin 1))
      = bfc (ix1 (0 : Fin 1)) := by
  rw [broadcastTo_apply _ _ _ (ix2 (0 : Fin 1) (0 : Fin 1)) (fun a => by
    match a with
    | ⟨0, _⟩ => rfl
    | ⟨1, _⟩ => rfl)]
  exact shapeCast_apply _ _ _ (ix1 (0 : Fin 1)) (by
    rw [Shape.rowMajor_val_one, Shape.rowMajor_val_two]
    rfl)

/-- The kernel's final layer at (r, 0): the pooled features through the weights, plus the bias. -/
theorem kerOut_apply (po : FVec Ideal S128x64 .f32) (Wfc : FVec Ideal S64x1 .f32) (bfc : FVec Ideal S1 .f32) (r : Fin 128) :
    kerOut po Wfc bfc (ix2 r (0 : Fin 1))
      = (∑ d : Fin 64, po (ix2 r d) * Wfc (ix2 d (0 : Fin 1))) + bfc (ix1 (0 : Fin 1)) := by
  unfold kerOut
  rw [addf_apply, fc_matmul_apply, fc_bias_apply]

end Tail

theorem kerTail_apply (l : FVec Ideal S128x276x1 .f32) (inn : FVec Ideal S128x276x64 .f32) (Wfc : Vec Ideal S64x1 .f32)
    (bfc : Vec Ideal S1 .f32) (r : Fin 128) :
    kerOut (kerPooled l inn) Wfc bfc (ix2 r (0 : Fin 1))
      = AFM.tail (fun p => l (ix3 r p (0 : Fin 1))) (fun p d => inn (ix3 r p d)) (fun d => Wfc (ix2 d (0 : Fin 1))) (bfc (ix1 (0 : Fin 1))) := by
  refine (Tail.kerOut_apply (kerPooled l inn) Wfc bfc r).trans ?_
  unfold AFM.tail AFM.final
  refine congrArg (· + bfc (ix1 (0 : Fin 1))) (Finset.sum_congr rfl fun d _ => ?_)
  rw [Tail.kerPooled_apply]

end Cert.KernelIdeal.KerValue

end
-- ==== Proof.KerBlock.lean ====
/-
  What the kernel body leaves in its output block, entry (r, 0), is the network of `Spec.lean` on the block's sample r: the block of
  pairwise products (`out_eq`), then the logits and the softmax pooling with the final layer, each read at sample r.
-/
import proofs.«117869_j75273596829809_1_alg».proof.Proof.KerInner
import proofs.«117869_j75273596829809_1_alg».proof.Proof.KerLogits
import proofs.«117869_j75273596829809_1_alg».proof.Proof.KerTail

noncomputable section

namespace Cert.KernelIdeal.KerValue

open Cert.KernelIdeal Cert.KernelIdeal.KerTerm Idealize.ShloMosaic Idealize.ShloMosaic.ValueIdx

/-- The body's output block at (r, 0) is the network on the block's sample r. -/
theorem out_row (x0 : Vec Ideal S128x24x64 .f32) (x1 : Vec Ideal S64x64 .f32) (x2 : Vec Ideal S64 .f32) (x3 : Vec Ideal S64x1 .f32)
    (x4 : Vec Ideal S1 .f32) (x5 : Vec Ideal S64x1 .f32) (x6 : Vec Ideal S1 .f32) (r : Fin 128) :
    Cert.KernelIdeal.GenP.out0_7 x0 x1 x2 x3 x4 x5 x6 (ix2 r (0 : Fin 1))
      = AFM.rowOut (fun f d => x0 (ix3 r f d)) (fun d a => x1 (ix2 d a)) (fun a => x2 (ix1 a)) (fun a => x3 (ix2 a (0 : Fin 1)))
          (x4 (ix1 (0 : Fin 1))) (fun d => x5 (ix2 d (0 : Fin 1))) (x6 (ix1 (0 : Fin 1))) := by
  obtain ⟨inn, hinn, he⟩ := out_eq x0 x1 x2 x3 x4 x5 x6
  have hi : (fun p d => inn (ix3 r p d)) = AFM.inner (fun f d => x0 (ix3 r f d)) := by
    funext p d; rw [hinn]; rfl
  have hl : (fun p => kerLogits (kerHidden inn x1 x2) x3 x4 (ix3 r p (0 : Fin 1)))
      = AFM.logit (AFM.hidden (AFM.inner (fun f d => x0 (ix3 r f d))) (fun d a => x1 (ix2 d a)) (fun a => x2 (ix1 a)))
          (fun a => x3 (ix2 a (0 : Fin 1))) (x4 (ix1 (0 : Fin 1))) := by
    funext p; rw [kerLogits_apply, hi]
  rw [he]
  unfold kerRest
  rw [kerTail_apply, hl, hi]
  rfl

end Cert.KernelIdeal.KerValue

end
-- ==== Proof.SpecArray.lean ====
/-
  The network on the whole batch: the output array's entry (b, 0) is the network of `Spec.lean` on sample b, the weight
  arrays read at their coordinates. Both programs' result arrays are shown to be this one function of the argument arrays.
-/
import proofs.«117869_j75273596829809_1_alg».proof.Proof.Spec
import Idealize.ShloMosaic.Lib.ValueIdx

noncomputable section

namespace AFM

open Idealize.ShloMosaic Idealize.ShloMosaic.ValueIdx

/-- Sample `b` of the input, as fields by features. -/
def sample (x : (⟨3, ![4096, 24, 64]⟩ : Shape).Idx → EReal) (b : Fin 4096) : Fin 24 → Fin 64 → EReal := fun f d => x (ix3 b f d)

/-- The batch's outputs as one function of the seven argument arrays. -/
def G (x : (⟨3, ![4096, 24, 64]⟩ : Shape).Idx → EReal) (Wa : (⟨2, ![64, 64]⟩ : Shape).Idx → EReal) (ba : (⟨1, ![64]⟩ : Shape).Idx → EReal)
    (Wp : (⟨2, ![64, 1]⟩ : Shape).Idx → EReal) (bp : (⟨1, ![1]⟩ : Shape).Idx → EReal) (Wfc : (⟨2, ![64, 1]⟩ : Shape).Idx → EReal)
    (bfc : (⟨1, ![1]⟩ : Shape).Idx → EReal) : (⟨2, ![4096, 1]⟩ : Shape).Idx → EReal :=
  fun i => rowOut (sample x ⟨(i 0).val, idx2_lt0 i⟩) (fun d a => Wa (ix2 d a)) (fun a => ba (ix1 a)) (fun a => Wp (ix2 a (0 : Fin 1)))
    (bp (ix1 (0 : Fin 1))) (fun d => Wfc (ix2 d (0 : Fin 1))) (bfc (ix1 (0 : Fin 1)))

/-- Entry (b, 0) of the batch's outputs. -/
theorem G_apply (x : (⟨3, ![4096, 24, 64]⟩ : Shape).Idx → EReal) (Wa : (⟨2, ![64, 64]⟩ : Shape).Idx → EReal) (ba : (⟨1, ![64]⟩ : Shape).Idx → EReal)
    (Wp : (⟨2, ![64, 1]⟩ : Shape).Idx → EReal) (bp : (⟨1, ![1]⟩ : Shape).Idx → EReal) (Wfc : (⟨2, ![64, 1]⟩ : Shape).Idx → EReal)
    (bfc : (⟨1, ![1]⟩ : Shape).Idx → EReal) (b : Fin 4096) (z : Fin 1) :
    G x Wa ba Wp bp Wfc bfc (ix2 b z) = rowOut (fun f d => x (ix3 b f d)) (fun d a => Wa (ix2 d a)) (fun a => ba (ix1 a))
      (fun a => Wp (ix2 a (0 : Fin 1))) (bp (ix1 (0 : Fin 1))) (fun d => Wfc (ix2 d (0 : Fin 1))) (bfc (ix1 (0 : Fin 1))) := rfl

end AFM

end
-- ==== Proof.KerArray.lean ====
/-
  From the kernel's blocks to its result array. Grid point t stages samples 128 t … 128 t + 127 of the input and the whole of every
  weight array, and writes rows 128 t … 128 t + 127 of the result; the body's output block at (r, 0) is the network on the block's
  sample r (`out_row`), so what point t writes back is block t of the batch network `AFM.G` of the argument arrays; the 32 blocks
  cover the result array, which therefore ends holding `AFM.G` of the arguments.
-/
import proofs.«117869_j75273596829809_1_alg».proof.Proof.KernelIdealFrame
import proofs.«117869_j75273596829809_1_alg».proof.Proof.KerBlock
import proofs.«117869_j75273596829809_1_alg».proof.Proof.SpecArray
import Idealize.ShloMosaic.Lib.Pipeline.Value

noncomputable section

namespace Cert.KernelIdeal.KerArray

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The batch network of the argument arrays as core `c` holds them. -/
abbrev Garr (c : Dev nD) : S4096x1.Idx → EReal :=
  AFM.G (m ((c : Thread nD τ).loc main_arg0) : S4096x24x64.Idx → EReal) (m ((c : Thread nD τ).loc main_arg1) : S64x64.Idx → EReal)
    (m ((c : Thread nD τ).loc main_arg2) : S64.Idx → EReal) (m ((c : Thread nD τ).loc main_arg3) : S64x1.Idx → EReal)
    (m ((c : Thread nD τ).loc main_arg4) : S1.Idx → EReal) (m ((c : Thread nD τ).loc main_arg5) : S64x1.Idx → EReal)
    (m ((c : Thread nD τ).loc main_arg6) : S1.Idx → EReal)

/-- The index maps over the 32 grid points: the input's and the result's blocks move with the point along axis 0, every weight
    window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The input blocks as entries of the argument arrays -/

/-- The input's block at point t, sample r, is sample 128 t + r of the input. -/
theorem iblk0_apply (c : Dev nD) (t : Fin cfg0.N) (r : Fin 128) (f : Fin 24) (d : Fin 64) (b : Fin 4096) (hb : b.val = 128 * t.val + r.val) :
    (iblk m c 0 t : Vec Ideal S128x24x64 .f32) (ix3 r f d) = (m ((c : Thread nD τ).loc main_arg0) : S4096x24x64.Idx → EReal) (ix3 b f d) := by
  obtain ⟨h0, h1, h2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 128 + 1 * r.val = b.val; rw [h0, hb]; omega
  | ⟨1, _⟩ => show win0_0.index t (1 : Fin 3) * 24 + 1 * f.val = f.val; rw [h1]; omega
  | ⟨2, _⟩ => show win0_0.index t (2 : Fin 3) * 64 + 1 * d.val = d.val; rw [h2]; omega

/-- The attention weights' block is the whole array at every point. -/
theorem iblk1_apply (c : Dev nD) (t : Fin cfg0.N) (d a : Fin 64) :
    (iblk m c 1 t : Vec Ideal S64x64 .f32) (ix2 d a) = (m ((c : Thread nD τ).loc main_arg1) : S64x64.Idx → EReal) (ix2 d a) := by
  obtain ⟨-, -, -, h0, h1, -⟩ := idx_facts t
  unfold iblk
  rw [View.read_apply]
  show V m c main_arg1 _ = m (c.tc.loc main_arg1) _
  unfold V
  congr 1
  funext k
  apply Fin.ext
  match k with
  | ⟨0, _⟩ => show win0_1.index t (0 : Fin 2) * 64 + 1 * d.val = d.val; rw [h0]; omega
  | ⟨1, _⟩ => show win0_1.index t (1 : Fin 2) * 64 + 1 * a.val = a.val; rw [h1]; omega

/-- The attention bias's block is the whole array at every point. -/
theorem iblk2_apply (c : Dev nD) (t : Fin cfg0.N) (a : Fin 64) :
    (iblk m c 2 t : Vec Ideal S64 .f32) (ix1 a) = (m ((c : Thread nD τ).loc main_arg2) : S64.Idx → EReal) (ix1 a) := by
  obtain ⟨-, -, -, -, -, h0, -⟩ := idx_facts t
  unfold iblk
  rw [View.read_apply]
  show V m c main_arg2 _ = m (c.tc.loc main_arg2) _
  unfold V
  congr 1
  funext k
  apply Fin.ext
  match k with
  | ⟨0, _⟩ => show win0_2.index t (0 : Fin 1) * 64 + 1 * a.val = a.val; rw [h0]; omega

/-- The projection weights' block is the whole array at every point. -/
theorem iblk3_apply (c : Dev nD) (t : Fin cfg0.N) (a : Fin 64) (z : Fin 1) :
    (iblk m c 3 t : Vec Ideal S64x1 .f32) (ix2 a z) = (m ((c : Thread nD τ).loc main_arg3) : S64x1.Idx → EReal) (ix2 a z) := by
  obtain ⟨-, -, -, -, -, -, h0, h1, -⟩ := idx_facts t
  unfold iblk
  rw [View.read_apply]
  show V m c main_arg3 _ = m (c.tc.loc main_arg3) _
  unfold V
  congr 1
  funext k
  apply Fin.ext
  match k with
  | ⟨0, _⟩ => show win0_3.index t (0 : Fin 2) * 64 + 1 * a.val = a.val; rw [h0]; omega
  | ⟨1, _⟩ => show win0_3.index t (1 : Fin 2) * 1 + 1 * z.val = z.val; rw [h1]; omega

/-- The projection bias's block is the whole array at every point. -/
theorem iblk4_apply (c : Dev nD) (t : Fin cfg0.N) (z : Fin 1) :
    (iblk m c 4 t : Vec Ideal S1 .f32) (ix1 z) = (m ((c : Thread nD τ).loc main_arg4) : S1.Idx → EReal) (ix1 z) := by
  obtain ⟨-, -, -, -, -, -, -, -, h0, -⟩ := idx_facts t
  unfold iblk
  rw [View.read_apply]
  show V m c main_arg4 _ = m (c.tc.loc main_arg4) _
  unfold V
  congr 1
  funext k
  apply Fin.ext
  match k with
  | ⟨0, _⟩ => show win0_4.index t (0 : Fin 1) * 1 + 1 * z.val = z.val; rw [h0]; omega

/-- The final weights' block is the whole array at every point. -/
theorem iblk5_apply (c : Dev nD) (t : Fin cfg0.N) (a : Fin 64) (z : Fin 1) :
    (iblk m c 5 t : Vec Ideal S64x1 .f32) (ix2 a z) = (m ((c : Thread nD τ).loc main_arg5) : S64x1.Idx → EReal) (ix2 a z) := by
  obtain ⟨-, -, -, -, -, -, -, -, -, h0, h1, -⟩ := idx_facts t
  unfold iblk
  rw [View.read_apply]
  show V m c main_arg5 _ = m (c.tc.loc main_arg5) _
  unfold V
  congr 1
  funext k
  apply Fin.ext
  match k with
  | ⟨0, _⟩ => show win0_5.index t (0 : Fin 2) * 64 + 1 * a.val = a.val; rw [h0]; omega
  | ⟨1, _⟩ => show win0_5.index t (1 : Fin 2) * 1 + 1 * z.val = z.val; rw [h1]; omega

/-- The final bias's block is the whole array at every point. -/
theorem iblk6_apply (c : Dev nD) (t : Fin cfg0.N) (z : Fin 1) :
    (iblk m c 6 t : Vec Ideal S1 .f32) (ix1 z) = (m ((c : Thread nD τ).loc main_arg6) : S1.Idx → EReal) (ix1 z) := by
  obtain ⟨-, -, -, -, -, -, -, -, -, -, -, h0, -⟩ := idx_facts t
  unfold iblk
  rw [View.read_apply]
  show V m c main_arg6 _ = m (c.tc.loc main_arg6) _
  unfold V
  congr 1
  funext k
  apply Fin.ext
  match k with
  | ⟨0, _⟩ => show win0_6.index t (0 : Fin 1) * 1 + 1 * z.val = z.val; rw [h0]; omega

/-! ## What a point writes back -/

/-- The body's output block at point t, read at `y`, is the batch network at the array index `i` whose row is 128 t + `y`'s row. -/
theorem out_G (c : Dev nD) (t : Fin cfg0.N) (y : S128x1.Idx) (i : S4096x1.Idx) (hi : (i 0).val = 128 * t.val + (y 0).val) :
    out0_7 (iblk m c 0 t : Vec Ideal S128x24x64 .f32) (iblk m c 1 t : Vec Ideal S64x64 .f32) (iblk m c 2 t : Vec Ideal S64 .f32)
      (iblk m c 3 t : Vec Ideal S64x1 .f32) (iblk m c 4 t : Vec Ideal S1 .f32) (iblk m c 5 t : Vec Ideal S64x1 .f32)
      (iblk m c 6 t : Vec Ideal S1 .f32) y = Garr m c i := by
  obtain ⟨r, z, rfl⟩ : ∃ (r : Fin 128) (z : Fin 1), y = ix2 r z := ⟨y 0, y 1, eq_ix2 y⟩
  obtain rfl : z = 0 := Subsingleton.elim _ _
  obtain ⟨b, z', rfl⟩ : ∃ (b : Fin 4096) (z' : Fin 1), i = ix2 b z' := ⟨i 0, i 1, eq_ix2 i⟩
  have hb : b.val = 128 * t.val + r.val := hi
  refine (Cert.KernelIdeal.KerValue.out_row (iblk m c 0 t : Vec Ideal S128x24x64 .f32) (iblk m c 1 t : Vec Ideal S64x64 .f32)
    (iblk m c 2 t : Vec Ideal S64 .f32) (iblk m c 3 t : Vec Ideal S64x1 .f32) (iblk m c 4 t : Vec Ideal S1 .f32)
    (iblk m c 5 t : Vec Ideal S64x1 .f32) (iblk m c 6 t : Vec Ideal S1 .f32) r).trans ?_
  unfold Garr
  rw [AFM.G_apply]
  have e0 : (fun (f : Fin 24) (d : Fin 64) => (iblk m c 0 t : Vec Ideal S128x24x64 .f32) (ix3 r f d))
      = fun f d => (m ((c : Thread nD τ).loc main_arg0) : S4096x24x64.Idx → EReal) (ix3 b f d) :=
    funext fun f => funext fun d => iblk0_apply m c t r f d b hb
  have e1 : (fun (d a : Fin 64) => (iblk m c 1 t : Vec Ideal S64x64 .f32) (ix2 d a))
      = fun d a => (m ((c : Thread nD τ).loc main_arg1) : S64x64.Idx → EReal) (ix2 d a) :=
    funext fun d => funext fun a => iblk1_apply m c t d a
  have e2 : (fun (a : Fin 64) => (iblk m c 2 t : Vec Ideal S64 .f32) (ix1 a))
      = fun a => (m ((c : Thread nD τ).loc main_arg2) : S64.Idx → EReal) (ix1 a) :=
    funext fun a => iblk2_apply m c t a
  have e3 : (fun (a : Fin 64) => (iblk m c 3 t : Vec Ideal S64x1 .f32) (ix2 a (0 : Fin 1)))
      = fun a => (m ((c : Thread nD τ).loc main_arg3) : S64x1.Idx → EReal) (ix2 a (0 : Fin 1)) :=
    funext fun a => iblk3_apply m c t a 0
  have e5 : (fun (a : Fin 64) => (iblk m c 5 t : Vec Ideal S64x1 .f32) (ix2 a (0 : Fin 1)))
      = fun a => (m ((c : Thread nD τ).loc main_arg5) : S64x1.Idx → EReal) (ix2 a (0 : Fin 1)) :=
    funext fun a => iblk5_apply m c t a 0
  rw [e0, e1, e2, e3, e5, iblk4_apply m c t 0, iblk6_apply m c t 0]

theorem hz : (![0, 0] : Fin 2 → Nat) = fun _ => 0 := funext fun a => by fin_cases a <;> rfl

/-- What point t writes back is block t of the batch network of the arguments. -/
theorem flushed_eq (c : Dev nD) (t : Fin cfg0.N) :
    (dats m 0 c).flushed 7 t = ((cfg0.win 7).blk t).view.read (Elt Ideal) (Garr m c) := by
  show (cfg0.win 7).cut (grid0.coords t) ((dats m 0 c).after 7 t) = _
  rw [after0_7]
  funext j
  obtain ⟨-, -, -, -, -, -, -, -, -, -, -, -, h70, h71⟩ := idx_facts t
  refine out_G m c t j (((cfg0.win 7).blk t).view.emb j) ?_
  show win0_7.index t (0 : Fin 2) * 128 + 1 * (j 0).val = 128 * t.val + (j 0).val
  rw [h70]; omega

/-! ## The blocks cover the result array -/

/-- An index is in point t's block iff each coordinate is in the block's range on its axis. -/
theorem mem_blk (t : Fin cfg0.N) (i : S4096x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v0).slice (win0_7.rect t)).set ↔ _
  rw [View.set_slice_whole, Rect.mem_set_unit]
  exact Iff.rfl

/-- Row i of the result is written by point i / 128. -/
theorem cover (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 32 := N_0
  have ht : (i 0).val / 128 < cfg0.N := by rw [hN]; omega
  obtain ⟨-, -, -, -, -, -, -, -, -, -, -, -, h70, h71⟩ := idx_facts ⟨(i 0).val / 128, ht⟩
  refine ⟨⟨(i 0).val / 128, ht⟩, flush0_7 _, ?_⟩
  rw [mem_blk]
  intro a
  match a with
  | ⟨0, _⟩ =>
    show win0_7.index ⟨(i 0).val / 128, ht⟩ (0 : Fin 2) * 128 ≤ (i 0).val ∧ (i 0).val < win0_7.index ⟨(i 0).val / 128, ht⟩ (0 : Fin 2) * 128 + 128
    rw [h70]; show (i 0).val / 128 * 128 ≤ (i 0).val ∧ (i 0).val < (i 0).val / 128 * 128 + 128; omega
  | ⟨1, _⟩ =>
    show win0_7.index ⟨(i 0).val / 128, ht⟩ (1 : Fin 2) * 1 ≤ (i 1).val ∧ (i 1).val < win0_7.index ⟨(i 0).val / 128, ht⟩ (1 : Fin 2) * 1 + 1
    rw [h71]; omega

/-- The result array after the run is the batch network of the argument arrays. -/
theorem final (c : Dev nD) : (dats m 0 c).arrAt 7 cfg0.N = Garr m c :=
  (dats m 0 c).arrAt_eq_of_cover 7 (Garr m c) (fun t _ => flushed_eq m c t) cover

/-! ## The run -/

/-- Every weakly fair execution of the kernel's program terminates, the result array holding the batch network of the argument
    arrays and the arguments unchanged. -/
theorem run : θ_run defs (onTc (τ := τ) (main (F := Ideal))) ⟨m, fun _ => 0, ρ⟩ fun r => ∀ c : Dev nD,
      r.2.mem ((c : Thread nD τ).loc main_v0) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.KerArray

end
-- ==== Proof.RefTerm.lean ====
/-
  The reference's result as a composition of its stages, each a function of the stage before and of the weight arrays:
  the pairwise products (two gathers of the input along its field axis at the two tables of field numbers, multiplied),
  the rectified attention layer, the logits, the softmax-weighted pooling over the pairs, and the final linear layer.
  The reference's run ends with its result buffer at `refVal` of the argument arrays; the value lemmas read each stage at an index.
-/
import proofs.«117869_j75273596829809_1_alg».proof.Proof.Gen.ReferenceIdeal

noncomputable section

namespace Cert.ReferenceIdeal.RefTerm

open Cert.ReferenceIdeal Idealize.ShloMosaic
open Cert.ReferenceIdeal.Facts₀

variable {F : FTy → Type} [FloatOps F] [Cert.ReferenceIdeal.Facts]

/-- The start indices a table of field numbers gives the gather: an entry below zero is taken from the end (plus 24), and
    the column of entries is laid out as [276, 1]. -/
def startIdx (lit : Fin 276 → BitVec 32) : IVec S276x1 32 :=
  broadcastInDim S276x1 ![0] bcast_S276_S276x1_0
    (select (cmpi .slt (fun i => lit (S276.rowMajor i)) (broadcastInDim S276 ![] bcast_S_S276 (constantI S_ 32 0#32)))
      (addi (fun i => lit (S276.rowMajor i)) (broadcastInDim S276 ![] bcast_S_S276 (constantI S_ 32 24#32)))
      (fun i => lit (S276.rowMajor i)))

/-- The pairwise products: the input gathered along its field axis at the first fields, times the same at the second fields. -/
def refInner (x : FVec F S4096x24x64 .f32) : FVec F S4096x276x64 .f32 :=
  mulf (Host.gather gather_S4096x24x64_S276x1_S4096x276x64_02_1_n_n_1_1_4096164 x (startIdx lit0))
    (Host.gather gather_S4096x24x64_S276x1_S4096x276x64_02_1_n_n_1_1_4096164 x (startIdx lit1))

/-- The attention layer on the products, rectified. -/
def refHidden (inn : FVec F S4096x276x64 .f32) (Wa : FVec F S64x64 .f32) (ba : FVec F S64 .f32) : FVec F S4096x276x64 .f32 :=
  maximumf
    (addf (Host.dotGeneral dot_S4096x276x64_S64x64_S4096x276x64_2_0_01_1_n_n none inn Wa)
      (broadcastInDim S4096x276x64 ![0, 1, 2] bcast_S1x1x64_S4096x276x64_0_1_2 (broadcastInDim S1x1x64 ![2] bcast_S64_S1x1x64_2 ba)))
    (broadcastInDim S4096x276x64 ![] bcast_S_S4096x276x64 (constant S_ .f32 0x00000000#32))

/-- The attention logits. -/
def refLogits (hid : FVec F S4096x276x64 .f32) (Wp : FVec F S64x1 .f32) (bp : FVec F S1 .f32) : FVec F S4096x276x1 .f32 :=
  addf (Host.dotGeneral dot_S4096x276x64_S64x1_S4096x276x1_2_0_01_1_n_n none hid Wp)
    (broadcastInDim S4096x276x1 ![0, 1, 2] bcast_S1x1x1_S4096x276x1_0_1_2 (broadcastInDim S1x1x1 ![2] bcast_S1_S1x1x1_2 bp))

/-- The logits less each sample's largest, exponentiated: the unnormalised softmax weights. -/
def refExp (l : FVec F S4096x276x1 .f32) : FVec F S4096x276x1 .f32 :=
  Host.exp (subf l
    (broadcastInDim S4096x276x1 ![0, 1, 2] bcast_S4096x1x1_S4096x276x1_0_1_2
      (broadcastInDim S4096x1x1 ![0, 2] bcast_S4096x1_S4096x1x1_0_2
        (maximumf (broadcastInDim S4096x1 ![] bcast_S_S4096x1 (constant S_ .f32 0xFF800000#32))
          (Host.reduce FloatOps.maximumf l (constant S_ .f32 0xFF800000#32) reducesTo_S4096x276x1_S4096x1_d1 h_S_)))))

/-- The softmax weights over the pairs. -/
def refAttn (e : FVec F S4096x276x1 .f32) : FVec F S4096x276x1 .f32 :=
  Host.divf e
    (broadcastInDim S4096x276x1 ![0, 1, 2] bcast_S4096x1x1_S4096x276x1_0_1_2
      (broadcastInDim S4096x1x1 ![0, 2] bcast_S4096x1_S4096x1x1_0_2
        (Host.reduceAdd e (constant S_ .f32 0x00000000#32) reducesTo_S4096x276x1_S4096x1_d1 h_S_)))

/-- The products pooled over the pairs by the softmax weights. -/
def refPooled (l : FVec F S4096x276x1 .f32) (inn : FVec F S4096x276x64 .f32) : FVec F S4096x64 .f32 :=
  Host.reduceAdd
    (mulf (broadcastInDim S4096x276x64 ![0, 1, 2] bcast_S4096x276x1_S4096x276x64_0_1_2 (refAttn (refExp l))) inn)
    (constant S_ .f32 0x00000000#32) reducesTo_S4096x276x64_S4096x64_d1 h_S_

/-- The final linear layer. -/
def refOut (po : FVec F S4096x64 .f32) (Wfc : FVec F S64x1 .f32) (bfc : FVec F S1 .f32) : FVec F S4096x1 .f32 :=
  addf (Host.dotGeneral dot_S4096x64_S64x1_S4096x1_1_0_0_1_n_n none po Wfc)
    (broadcastInDim S4096x1 ![0, 1] bcast_S1x1_S4096x1_0_1 (broadcastInDim S1x1 ![1] bcast_S1_S1x1_1 bfc))

/-- The reference from the pairwise products on. -/
def refRest (inn : FVec F S4096x276x64 .f32) (Wa : FVec F S64x64 .f32) (ba : FVec F S64 .f32) (Wp : FVec F S64x1 .f32)
    (bp : FVec F S1 .f32) (Wfc : FVec F S64x1 .f32) (bfc : FVec F S1 .f32) : FVec F S4096x1 .f32 :=
  refOut (refPooled (refLogits (refHidden inn Wa ba) Wp bp) inn) Wfc bfc

/-- The reference's result as a function of its seven argument arrays. -/
def refVal (x : FVec F S4096x24x64 .f32) (Wa : FVec F S64x64 .f32) (ba : FVec F S64 .f32) (Wp : FVec F S64x1 .f32)
    (bp : FVec F S1 .f32) (Wfc : FVec F S64x1 .f32) (bfc : FVec F S1 .f32) : FVec F S4096x1 .f32 :=
  refRest (refInner x) Wa ba Wp bp Wfc bfc

end Cert.ReferenceIdeal.RefTerm

end
-- ==== Proof.RefRun.lean ====
/-
  The reference's run: every weakly fair execution of its @main terminates, the result buffer holding `refVal` of the seven
  argument arrays (the composition of the reference's stages) and the arguments unchanged.
-/
import proofs.«117869_j75273596829809_1_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]
/-- @main's operations in order, the call of the rectifier unfolded at its place: its zero word, the word's broadcast and
    the maximum of the attention layer's sum with it, over the call's own buffers. -/
abbrev ops : List (HloOp τ sig (Elt F)) :=
  [ nullary main_c (fun i => lit0 (S276.rowMajor i)),
    nullary main_c_0 (fun i => lit1 (S276.rowMajor i)),
    nullary main_c_1 (constantI S_ 32 0#32),
    unary main_c_1 main_v0 (broadcastInDim S276 ![] bcast_S_S276 : (⟨S_, .i32⟩ : BufTy).Contents (Elt F) → (⟨S276, .i32⟩ : BufTy).Contents (Elt F)),
    binary main_c main_v0 main_v1 (cmpi .slt : (⟨S276, .i32⟩ : BufTy).Contents (Elt F) → (⟨S276, .i32⟩ : BufTy).Contents (Elt F) → (⟨S276, .i1⟩ : BufTy).Contents (Elt F)),
    nullary main_c_2 (constantI S_ 32 24#32),
    unary main_c_2 main_v2 (broadcastInDim S276 ![] bcast_S_S276 : (⟨S_, .i32⟩ : BufTy).Contents (Elt F) → (⟨S276, .i32⟩ : BufTy).Contents (Elt F)),
    binary main_c main_v2 main_v3 (addi : (⟨S276, .i32⟩ : BufTy).Contents (Elt F) → (⟨S276, .i32⟩ : BufTy).Contents (Elt F) → (⟨S276, .i32⟩ : BufTy).Contents (Elt F)),
    ternary main_v1 main_v3 main_c main_v4 (select : (⟨S276, .i1⟩ : BufTy).Contents (Elt F) → (⟨S276, .i32⟩ : BufTy).Contents (Elt F) → (⟨S276, .i32⟩ : BufTy).Contents (Elt F) → (⟨S276, .i32⟩ : BufTy).Contents (Elt F)),
    unary main_v4 main_v5 (broadcastInDim S276x1 ![0] bcast_S276_S276x1_0 : (⟨S276, .i32⟩ : BufTy).Contents (Elt F) → (⟨S276x1, .i32⟩ : BufTy).Contents (Elt F)),
    binary main_arg0 main_v5 main_v6 ((fun x i => Host.gather gather_S4096x24x64_S276x1_S4096x276x64_02_1_n_n_1_1_4096164 x i) : (⟨S4096x24x64, .f32⟩ : BufTy).Contents (Elt F) → (⟨S276x1, .i32⟩ : BufTy).Contents (Elt F) → (⟨S4096x276x64, .f32⟩ : BufTy).Contents (Elt F)),
    nullary main_c_3 (constantI S_ 32 0#32),
    unary main_c_3 main_v7 (broadcastInDim S276 ![] bcast_S_S276 : (⟨S_, .i32⟩ : BufTy).Contents (Elt F) → (⟨S276, .i32⟩ : BufTy).Contents (Elt F)),
    binary main_c_0 main_v7 main_v8 (cmpi .slt : (⟨S276, .i32⟩ : BufTy).Contents (Elt F) → (⟨S276, .i32⟩ : BufTy).Contents (Elt F) → (⟨S276, .i1⟩ : BufTy).Contents (Elt F)),
    nullary main_c_4 (constantI S_ 32 24#32),
    unary main_c_4 main_v9 (broadcastInDim S276 ![] bcast_S_S276 : (⟨S_, .i32⟩ : BufTy).Contents (Elt F) → (⟨S276, .i32⟩ : BufTy).Contents (Elt F)),
    binary main_c_0 main_v9 main_v10 (addi : (⟨S276, .i32⟩ : BufTy).Contents (Elt F) → (⟨S276, .i32⟩ : BufTy).Contents (Elt F) → (⟨S276, .i32⟩ : BufTy).Contents (Elt F)),
    ternary main_v8 main_v10 main_c_0 main_v11 (select : (⟨S276, .i1⟩ : BufTy).Contents (Elt F) → (⟨S276, .i32⟩ : BufTy).Contents (Elt F) → (⟨S276, .i32⟩ : BufTy).Contents (Elt F) → (⟨S276, .i32⟩ : BufTy).Contents (Elt F)),
    unary main_v11 main_v12 (broadcastInDim S276x1 ![0] bcast_S276_S276x1_0 : (⟨S276, .i32⟩ : BufTy).Contents (Elt F) → (⟨S276x1, .i32⟩ : BufTy).Contents (Elt F)),
    binary main_arg0 main_v12 main_v13 ((fun x i => Host.gather gather_S4096x24x64_S276x1_S4096x276x64_02_1_n_n_1_1_4096164 x i) : (⟨S4096x24x64, .f32⟩ : BufTy).Contents (Elt F) → (⟨S276x1, .i32⟩ : BufTy).Contents (Elt F) → (⟨S4096x276x64, .f32⟩ : BufTy).Contents (Elt F)),
    binary main_v6 main_v13 main_v14 (mulf : (⟨S4096x276x64, .f32⟩ : BufTy).Contents (Elt F) → (⟨S4096x276x64, .f32⟩ : BufTy).Contents (Elt F) → (⟨S4096x276x64, .f32⟩ : BufTy).Contents (Elt F)),
    binary main_v14 main_arg1 main_v15 ((fun l r => Host.dotGeneral dot_S4096x276x64_S64x64_S4096x276x64_2_0_01_1_n_n none l r) : (⟨S4096x276x64, .f32⟩ : BufTy).Contents (Elt F) → (⟨S64x64, .f32⟩ : BufTy).Contents (Elt F) → (⟨S4096x276x64, .f32⟩ : BufTy).Contents (Elt F)),
    unary main_arg2 main_v16 (broadcastInDim S1x1x64 ![2] bcast_S64_S1x1x64_2 : (⟨S64, .f32⟩ : BufTy).Contents (Elt F) → (⟨S1x1x64, .f32⟩ : BufTy).Contents (Elt F)),
    unary main_v16 main_v17 (broadcastInDim S4096x276x64 ![0, 1, 2] bcast_S1x1x64_S4096x276x64_0_1_2 : (⟨S1x1x64, .f32⟩ : BufTy).Contents (Elt F) → (⟨S4096x276x64, .f32⟩ : BufTy).Contents (Elt F)),
    binary main_v15 main_v17 main_v18 (addf : (⟨S4096x276x64, .f32⟩ : BufTy).Contents (Elt F) → (⟨S4096x276x64, .f32⟩ : BufTy).Contents (Elt F) → (⟨S4096x276x64, .f32⟩ : BufTy).Contents (Elt F)),
    TRef.nullary main_call0.cst (constant S_ .f32 0x00000000#32),
    TRef.unary main_call0.cst main_call0.v0 (broadcastInDim S4096x276x64 ![] bcast_S_S4096x276x64),
    TRef.binary (.of main_v18) main_call0.v0 main_call0.v1 maximumf,
    binary main_v19 main_arg3 main_v20 ((fun l r => Host.dotGeneral dot_S4096x276x64_S64x1_S4096x276x1_2_0_01_1_n_n none l r) : (⟨S4096x276x64, .f32⟩ : BufTy).Contents (Elt F) → (⟨S64x1, .f32⟩ : BufTy).Contents (Elt F) → (⟨S4096x276x1, .f32⟩ : BufTy).Contents (Elt F)),
    unary main_arg4 main_v21 (broadcastInDim S1x1x1 ![2] bcast_S1_S1x1x1_2 : (⟨S1, .f32⟩ : BufTy).Contents (Elt F) → (⟨S1x1x1, .f32⟩ : BufTy).Contents (Elt F)),
    unary main_v21 main_v22 (broadcastInDim S4096x276x1 ![0, 1, 2] bcast_S1x1x1_S4096x276x1_0_1_2 : (⟨S1x1x1, .f32⟩ : BufTy).Contents (Elt F) → (⟨S4096x276x1, .f32⟩ : BufTy).Contents (Elt F)),
    binary main_v20 main_v22 main_v23 (addf : (⟨S4096x276x1, .f32⟩ : BufTy).Contents (Elt F) → (⟨S4096x276x1, .f32⟩ : BufTy).Contents (Elt F) → (⟨S4096x276x1, .f32⟩ : BufTy).Contents (Elt F)),
    nullary main_cst (constant S_ .f32 0xFF800000#32),
    binary main_v23 main_cst main_v24 ((fun x v => Host.reduce FloatOps.maximumf x v reducesTo_S4096x276x1_S4096x1_d1 h_S_) : (⟨S4096x276x1, .f32⟩ : BufTy).Contents (Elt F) → (⟨S_, .f32⟩ : BufTy).Contents (Elt F) → (⟨S4096x1, .f32⟩ : BufTy).Contents (Elt F)),
    nullary main_cst_5 (constant S_ .f32 0xFF800000#32),
    unary main_cst_5 main_v25 (broadcastInDim S4096x1 ![] bcast_S_S4096x1 : (⟨S_, .f32⟩ : BufTy).Contents (Elt F) → (⟨S4096x1, .f32⟩ : BufTy).Contents (Elt F)),
    binary main_v25 main_v24 main_v26 (maximumf : (⟨S4096x1, .f32⟩ : BufTy).Contents (Elt F) → (⟨S4096x1, .f32⟩ : BufTy).Contents (Elt F) → (⟨S4096x1, .f32⟩ : BufTy).Contents (Elt F)),
    unary main_v26 main_v27 (broadcastInDim S4096x1x1 ![0, 2] bcast_S4096x1_S4096x1x1_0_2 : (⟨S4096x1, .f32⟩ : BufTy).Contents (Elt F) → (⟨S4096x1x1, .f32⟩ : BufTy).Contents (Elt F)),
    unary main_v27 main_v28 (broadcastInDim S4096x276x1 ![0, 1, 2] bcast_S4096x1x1_S4096x276x1_0_1_2 : (⟨S4096x1x1, .f32⟩ : BufTy).Contents (Elt F) → (⟨S4096x276x1, .f32⟩ : BufTy).Contents (Elt F)),
    binary main_v23 main_v28 main_v29 (subf : (⟨S4096x276x1, .f32⟩ : BufTy).Contents (Elt F) → (⟨S4096x276x1, .f32⟩ : BufTy).Contents (Elt F) → (⟨S4096x276x1, .f32⟩ : BufTy).Contents (Elt F)),
    unary main_v29 main_v30 (Host.exp : (⟨S4096x276x1, .f32⟩ : BufTy).Contents (Elt F) → (⟨S4096x276x1, .f32⟩ : BufTy).Contents (Elt F)),
    nullary main_cst_6 (constant S_ .f32 0x00000000#32),
    binary main_v30 main_cst_6 main_v31 ((fun x v => Host.reduceAdd x v reducesTo_S4096x276x1_S4096x1_d1 h_S_) : (⟨S4096x276x1, .f32⟩ : BufTy).Contents (Elt F) → (⟨S_, .f32⟩ : BufTy).Contents (Elt F) → (⟨S4096x1, .f32⟩ : BufTy).Contents (Elt F)),
    unary main_v31 main_v32 (broadcastInDim S4096x1x1 ![0, 2] bcast_S4096x1_S4096x1x1_0_2 : (⟨S4096x1, .f32⟩ : BufTy).Contents (Elt F) → (⟨S4096x1x1, .f32⟩ : BufTy).Contents (Elt F)),
    unary main_v32 main_v33 (broadcastInDim S4096x276x1 ![0, 1, 2] bcast_S4096x1x1_S4096x276x1_0_1_2 : (⟨S4096x1x1, .f32⟩ : BufTy).Contents (Elt F) → (⟨S4096x276x1, .f32⟩ : BufTy).Contents (Elt F)),
    binary main_v30 main_v33 main_v34 (Host.divf : (⟨S4096x276x1, .f32⟩ : BufTy).Contents (Elt F) → (⟨S4096x276x1, .f32⟩ : BufTy).Contents (Elt F) → (⟨S4096x276x1, .f32⟩ : BufTy).Contents (Elt F)),
    unary main_v34 main_v35 (broadcastInDim S4096x276x64 ![0, 1, 2] bcast_S4096x276x1_S4096x276x64_0_1_2 : (⟨S4096x276x1, .f32⟩ : BufTy).Contents (Elt F) → (⟨S4096x276x64, .f32⟩ : BufTy).Contents (Elt F)),
    binary main_v35 main_v14 main_v36 (mulf : (⟨S4096x276x64, .f32⟩ : BufTy).Contents (Elt F) → (⟨S4096x276x64, .f32⟩ : BufTy).Contents (Elt F) → (⟨S4096x276x64, .f32⟩ : BufTy).Contents (Elt F)),
    nullary main_cst_7 (constant S_ .f32 0x00000000#32),
    binary main_v36 main_cst_7 main_v37 ((fun x v => Host.reduceAdd x v reducesTo_S4096x276x64_S4096x64_d1 h_S_) : (⟨S4096x276x64, .f32⟩ : BufTy).Contents (Elt F) → (⟨S_, .f32⟩ : BufTy).Contents (Elt F) → (⟨S4096x64, .f32⟩ : BufTy).Contents (Elt F)),
    binary main_v37 main_arg5 main_v38 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg6 main_v39 (broadcastInDim S1x1 ![1] bcast_S1_S1x1_1 : (⟨S1, .f32⟩ : BufTy).Contents (Elt F) → (⟨S1x1, .f32⟩ : BufTy).Contents (Elt F)),
    unary main_v39 main_v40 (broadcastInDim S4096x1 ![0, 1] bcast_S1x1_S4096x1_0_1 : (⟨S1x1, .f32⟩ : BufTy).Contents (Elt F) → (⟨S4096x1, .f32⟩ : BufTy).Contents (Elt F)),
    binary main_v38 main_v40 main_v41 (addf : (⟨S4096x1, .f32⟩ : BufTy).Contents (Elt F) → (⟨S4096x1, .f32⟩ : BufTy).Contents (Elt F) → (⟨S4096x1, .f32⟩ : BufTy).Contents (Elt F)) ]

set_option maxRecDepth 1024 in
/-- @main is that straight line: the rectifier's body unfolded at its call and the chain of steps reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., binary_bufs_sub ..,
    nullary_bufs_sub .., binary_bufs_sub .., binary_bufs_sub .., unary_bufs_sub .., unary_bufs_sub .., binary_bufs_sub ..⟩

/-- Every weakly fair execution of @main terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather in
set_option maxRecDepth 8192 in
/-- The fold at the result buffer is the composition of the stages: each operation's result read at its own buffer and
    carried unchanged past the others, the term left is `refVal`'s own once its stages are unfolded (the transports at
    the rectifier's buffers are along equations between a type and itself). The reductions and the gathers stay folded
    meanwhile: the equation never looks inside them. -/
theorem out_eq (V : Valuation τ sig (Elt F)) :
    after ops V (main_v41 : DevRef τ sig)
      = refVal (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

/-- No operation writes argument 0's buffer. -/
theorem arg0_eq (V : Valuation τ sig (Elt F)) :
    after ops V (main_arg0 : DevRef τ sig) = V (main_arg0 : DevRef τ sig) := by
  after_results_simp

/-- No operation writes argument 1's buffer. -/
theorem arg1_eq (V : Valuation τ sig (Elt F)) :
    after ops V (main_arg1 : DevRef τ sig) = V (main_arg1 : DevRef τ sig) := by
  after_results_simp

/-- No operation writes argument 2's buffer. -/
theorem arg2_eq (V : Valuation τ sig (Elt F)) :
    after ops V (main_arg2 : DevRef τ sig) = V (main_arg2 : DevRef τ sig) := by
  after_results_simp

/-- No operation writes argument 3's buffer. -/
theorem arg3_eq (V : Valuation τ sig (Elt F)) :
    after ops V (main_arg3 : DevRef τ sig) = V (main_arg3 : DevRef τ sig) := by
  after_results_simp

/-- No operation writes argument 4's buffer. -/
theorem arg4_eq (V : Valuation τ sig (Elt F)) :
    after ops V (main_arg4 : DevRef τ sig) = V (main_arg4 : DevRef τ sig) := by
  after_results_simp

/-- No operation writes argument 5's buffer. -/
theorem arg5_eq (V : Valuation τ sig (Elt F)) :
    after ops V (main_arg5 : DevRef τ sig) = V (main_arg5 : DevRef τ sig) := by
  after_results_simp

/-- No operation writes argument 6's buffer. -/
theorem arg6_eq (V : Valuation τ sig (Elt F)) :
    after ops V (main_arg6 : DevRef τ sig) = V (main_arg6 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = refVal (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_all m ρ)

end Cert.ReferenceIdeal.RefRun

end
-- ==== Proof.RefInner.lean ====
/-
  The reference's pairwise products read at an index: entry (b, p, d) is sample b's field `pr p` times its field `pc p`, at feature d.

  The products are two gathers of the input along its field axis, multiplied. A gather with these dimension numbers (operand
  [4096, 24, 64], start indices [276, 1]; result axes 0 and 2 are offset axes, operand axis 1 is collapsed and is the one axis
  the start index map names) reads, at (b, p, d), the operand at (b, f, d) where f is start index (p, 0) read as a signed
  integer and clamped into [0, 23]. The start indices are a table of field numbers, an entry below zero taken from the end;
  no entry of either table is below zero, and entry p of the first (second) table is pair p's first (second) field.
-/
import proofs.«117869_j75273596829809_1_alg».proof.Proof.RefTerm
import proofs.«117869_j75273596829809_1_alg».proof.Proof.Spec
import Idealize.ShloMosaic.Lib.ValueIdx
import Idealize.ShloMosaic.Lib.Pipeline.Value

noncomputable section

open scoped BigOperators

namespace Cert.ReferenceIdeal.RefValue

open Cert.ReferenceIdeal Cert.ReferenceIdeal.RefTerm Idealize.ShloMosaic Idealize.ShloMosaic.ValueIdx

namespace Inner

/-- The gather's dimension numbers, by a short name. -/
abbrev GD : GatherDims S4096x24x64 S276x1 S4096x276x64 := gather_S4096x24x64_S276x1_S4096x276x64_02_1_n_n_1_1_4096164

/-- The field a start-index word names: the word read signed, clamped into [0, 23]. -/
def fieldAt (w : BitVec 32) : Fin 24 := ⟨min w.toInt.toNat 23, by omega⟩

/-! The operand's three axes against the dimension numbers: axis 1 alone is indexed and collapsed, axes 0 and 2 are kept. -/
theorem ax0_not_indexed : (0 : Fin S4096x24x64.rank) ∉ GD.startIndexMap := by decide
theorem ax1_indexed : (1 : Fin S4096x24x64.rank) ∈ GD.startIndexMap := by decide
theorem ax2_not_indexed : (2 : Fin S4096x24x64.rank) ∉ GD.startIndexMap := by decide
theorem ax0_kept : (0 : Fin S4096x24x64.rank) ∈ GD.sKept := by decide
theorem ax1_not_kept : (1 : Fin S4096x24x64.rank) ∉ GD.sKept := by decide
theorem ax2_kept : (2 : Fin S4096x24x64.rank) ∈ GD.sKept := by decide

/-- Axis 0 of the operand index: no start, the result's coordinate on offset axis 0. -/
theorem coord0 (idx : IVec S276x1 32) (b : Fin 4096) (p : Fin 276) (d : Fin 64) :
    GD.start (ix3 b p d) idx 0 + GD.offCoord (ix3 b p d) 0 = b.val := by
  unfold GatherDims.start GatherDims.offCoord
  rw [dif_neg ax0_not_indexed, dif_pos ax0_kept, Nat.zero_add]
  rfl

/-- Axis 2 of the operand index: no start, the result's coordinate on offset axis 2. -/
theorem coord2 (idx : IVec S276x1 32) (b : Fin 4096) (p : Fin 276) (d : Fin 64) :
    GD.start (ix3 b p d) idx 2 + GD.offCoord (ix3 b p d) 2 = d.val := by
  unfold GatherDims.start GatherDims.offCoord
  rw [dif_neg ax2_not_indexed, dif_pos ax2_kept, Nat.zero_add]
  rfl

/-- The start-indices index result index (b, p, d) reads its one start component at: (p, 0). -/
theorem siIdx_eq (b : Fin 4096) (p : Fin 276) (d : Fin 64) :
    GD.siIdx (ix3 b p d) ⟨List.idxOf (1 : Fin S4096x24x64.rank) GD.startIndexMap, List.idxOf_lt_length_iff.2 ax1_indexed⟩ = ix2 p 0 := by
  funext c; refine Fin.ext ?_
  match c with
  | ⟨0, _⟩ => rfl
  | ⟨1, _⟩ => rfl

/-- Axis 1 of the operand index: the start index read signed and clamped to the 24 fields, no offset. -/
theorem coord1 (idx : IVec S276x1 32) (b : Fin 4096) (p : Fin 276) (d : Fin 64) :
    GD.start (ix3 b p d) idx 1 + GD.offCoord (ix3 b p d) 1 = min (idx (ix2 p 0)).toInt.toNat 23 := by
  rw [GatherDims.offCoord_eq_zero _ _ _ ax1_not_kept, Nat.add_zero]
  unfold GatherDims.start
  rw [dif_pos ax1_indexed, siIdx_eq]
  rfl

/-- THE GATHER READ AT (b, p, d): the operand at sample b, the field start index (p, 0) names, feature d. -/
theorem gather_fields_apply {α : Type} (x : S4096x24x64.Idx → α) (idx : IVec S276x1 32) (b : Fin 4096) (p : Fin 276) (d : Fin 64) :
    Host.gather GD x idx (ix3 b p d) = x (ix3 b (fieldAt (idx (ix2 p 0))) d) := by
  unfold Host.gather
  congr 1
  funext a
  refine Fin.ext ?_
  show GD.start (ix3 b p d) idx a + GD.batchCoord (ix3 b p d) a + GD.offCoord (ix3 b p d) a = _
  rw [GatherDims.batchCoord_eq_zero _ _ _ List.not_mem_nil, Nat.add_zero]
  match a with
  | ⟨0, _⟩ => exact coord0 idx b p d
  | ⟨1, _⟩ => exact coord1 idx b p d
  | ⟨2, _⟩ => exact coord2 idx b p d

/-- A table's start indices at (p, 0): the table's entry p itself, when that entry is not below zero. -/
theorem startIdx_apply (lit : Fin 276 → BitVec 32) (p : Fin 276) (h : IntOp.cmpi .slt (lit p) 0#32 = 0#1) :
    startIdx lit (ix2 p 0) = lit p := by
  unfold startIdx
  rw [broadcastInDim_apply _ _ _ (ix2 p 0) (ix1 p) (by
    intro a
    match a with
    | ⟨0, _⟩ => rfl)]
  rw [select_apply]
  have hp : lit (S276.rowMajor (ix1 p)) = lit p := congrArg lit (Fin.ext (Shape.rowMajor_val_one (ix1 p)))
  show Scalar.select (IntOp.cmpi .slt (lit (S276.rowMajor (ix1 p))) 0#32) (IntOp.addi (lit (S276.rowMajor (ix1 p))) 24#32)
    (lit (S276.rowMajor (ix1 p))) = lit p
  rw [hp, h, select_zero]

/-- The first table: no entry is below zero, and entry p, clamped, is pair p's first field. -/
theorem lit0_facts : ∀ p : Fin 276, IntOp.cmpi .slt (lit0 p) 0#32 = 0#1 ∧ min (lit0 p).toInt.toNat 23 = AFM.rowOf p.val := by
  decide +kernel

/-- The second table: no entry is below zero, and entry p, clamped, is pair p's second field. -/
theorem lit1_facts : ∀ p : Fin 276, IntOp.cmpi .slt (lit1 p) 0#32 = 0#1 ∧ min (lit1 p).toInt.toNat 23 = AFM.colOf p.val := by
  decide +kernel

end Inner

open Inner in
theorem refInner_apply (x : FVec Ideal S4096x24x64 .f32) (b : Fin 4096) (p : Fin 276) (d : Fin 64) :
    refInner x (ix3 b p d) = x (ix3 b (AFM.pr p) d) * x (ix3 b (AFM.pc p) d) := by
  unfold refInner
  rw [mulf_apply]
  have h0 : fieldAt (lit0 p) = AFM.pr p := Fin.ext (lit0_facts p).2
  have h1 : fieldAt (lit1 p) = AFM.pc p := Fin.ext (lit1_facts p).2
  have g0 := gather_fields_apply x (startIdx lit0) b p d
  have g1 := gather_fields_apply x (startIdx lit1) b p d
  rw [startIdx_apply lit0 p (lit0_facts p).1, h0] at g0
  rw [startIdx_apply lit1 p (lit1_facts p).1, h1] at g1
  rw [g0, g1]

end Cert.ReferenceIdeal.RefValue

end
-- ==== Proof.RefLogits.lean ====
/-
  The reference's attention logits read at an index: entry (b, p, 0) is pair p's logit of sample b's products.
-/
import proofs.«117869_j75273596829809_1_alg».proof.Proof.RefTerm
import proofs.«117869_j75273596829809_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.RefTerm Idealize.ShloMosaic Idealize.ShloMosaic.ValueIdx
open Cert.ReferenceIdeal.Facts₀

/-! ## A contraction of the last axis with a matrix -/

/-- A [B, P, K] array times a [K, N] matrix, the last axis of the first contracted with the first axis of the second:
    entry (b, p, n) is the sum over k of the products of the entries (b, p, k) and (k, n). The one-axis contraction
    index is its coordinate k; the first operand's index at (b, p, n) and k is (b, p, k), the second's is (k, n). -/
theorem dot_last_apply {B P K N : Nat} {φ₁ φ₂ : FTy}
    (w : DotDims.WF ⟨3, ![B, P, K]⟩ ⟨2, ![K, N]⟩ ⟨3, ![B, P, N]⟩ [2] [0] [0, 1] [1] [] [])
    (prec : Option ContractPrecision) (A : FVec Ideal ⟨3, ![B, P, K]⟩ φ₁) (W : FVec Ideal ⟨2, ![K, N]⟩ φ₂)
    (b : Fin B) (p : Fin P) (n : Fin N) :
    Host.dotGeneral (⟨[2], [0], [0, 1], [1], [], [], w⟩ : DotDims _ _ _) prec A W (ix3 b p n)
      = ∑ k : Fin K, A (ix3 b p k) * W (ix2 k n) := by
  show FloatOps.dotGeneral _ prec _ A W (ix3 b p n) = _
  rw [Ideal.dotGeneral_apply,
    ← Equiv.sum_comp (contrEquiv1 (⟨[2], [0], [0, 1], [1], [], [], w⟩ : DotDims _ _ _) K rfl rfl).symm]
  refine Finset.sum_congr rfl fun k _ => ?_
  have hk := contrEquiv1_symm_val
    (⟨[2], [0], [0, 1], [1], [], [], w⟩ : DotDims ⟨3, ![B, P, K]⟩ ⟨2, ![K, N]⟩ ⟨3, ![B, P, N]⟩) K rfl rfl k
  have hl : (⟨[2], [0], [0, 1], [1], [], [], w⟩ : DotDims ⟨3, ![B, P, K]⟩ ⟨2, ![K, N]⟩ ⟨3, ![B, P, N]⟩).lhsIdx (ix3 b p n)
      ((contrEquiv1 _ K rfl rfl).symm k) = ix3 b p k := by
    funext ax; apply Fin.ext
    match ax with
    | ⟨0, _⟩ => rfl
    | ⟨1, _⟩ => rfl
    | ⟨2, _⟩ => exact (DotDims.lhsIdx_val_of_single _ (cl := (2 : Fin 3)) rfl _ _).trans hk
  have hr : (⟨[2], [0], [0, 1], [1], [], [], w⟩ : DotDims ⟨3, ![B, P, K]⟩ ⟨2, ![K, N]⟩ ⟨3, ![B, P, N]⟩).rhsIdx (ix3 b p n)
      ((contrEquiv1 _ K rfl rfl).symm k) = ix2 k n := by
    funext ax; apply Fin.ext
    match ax with
    | ⟨0, _⟩ => exact (DotDims.rhsIdx_val_of_single _ (cr := (0 : Fin 2)) rfl _ _).trans hk
    | ⟨1, _⟩ => rfl
  rw [hl, hr]

/-! ## The biases and the zero, laid out over all samples and pairs -/

/-- The attention layer's bias, laid out as [1, 1, 64] and then over every sample and pair, at (b, p, a) is its entry a. -/
theorem biasA_apply (ba : FVec Ideal S64 .f32) (b : Fin 4096) (p : Fin 276) (a : Fin 64) :
    broadcastInDim S4096x276x64 ![0, 1, 2] bcast_S1x1x64_S4096x276x64_0_1_2
        (broadcastInDim S1x1x64 ![2] bcast_S64_S1x1x64_2 ba) (ix3 b p a) = ba (ix1 a) := by
  refine (broadcastInDim_apply _ _ _ (ix3 b p a) (ix3 (0 : Fin 1) (0 : Fin 1) a) ?_).trans
    (broadcastInDim_apply _ _ _ _ (ix1 a) ?_)
  · intro ax
    match ax with
    | ⟨0, _⟩ => rfl
    | ⟨1, _⟩ => rfl
    | ⟨2, _⟩ => rfl
  · intro ax
    match ax with
    | ⟨0, _⟩ => rfl

/-- The logits' bias, laid out as [1, 1, 1] and then over every sample and pair, at (b, p, 0) is its one entry. -/
theorem biasP_apply (bp : FVec Ideal S1 .f32) (b : Fin 4096) (p : Fin 276) :
    broadcastInDim S4096x276x1 ![0, 1, 2] bcast_S1x1x1_S4096x276x1_0_1_2
        (broadcastInDim S1x1x1 ![2] bcast_S1_S1x1x1_2 bp) (ix3 b p (0 : Fin 1)) = bp (ix1 (0 : Fin 1)) := by
  refine (broadcastInDim_apply _ _ _ (ix3 b p (0 : Fin 1)) (ix3 (0 : Fin 1) (0 : Fin 1) (0 : Fin 1)) ?_).trans
    (broadcastInDim_apply _ _ _ _ (ix1 (0 : Fin 1)) ?_)
  · intro ax
    match ax with
    | ⟨0, _⟩ => rfl
    | ⟨1, _⟩ => rfl
    | ⟨2, _⟩ => rfl
  · intro ax
    match ax with
    | ⟨0, _⟩ => rfl

/-- The zero the attention layer is rectified against, laid out over every sample, pair and unit, is the word 0 at every entry. -/
theorem zeroSplat_apply (j : S4096x276x64.Idx) :
    broadcastInDim S4096x276x64 ![] bcast_S_S4096x276x64 (constant (F := Ideal) S_ .f32 0x00000000#32) j = AFM.zero := rfl

/-! ## The rectified attention layer and the logits -/

/-- The reference's rectified attention layer at (b, p, a): unit a of pair p of sample b's products. -/
theorem refHidden_apply (inn : FVec Ideal S4096x276x64 .f32) (Wa : FVec Ideal S64x64 .f32) (ba : FVec Ideal S64 .f32)
    (b : Fin 4096) (p : Fin 276) (a : Fin 64) :
    refHidden inn Wa ba (ix3 b p a)
      = AFM.hidden (fun p d => inn (ix3 b p d)) (fun d a => Wa (ix2 d a)) (fun a => ba (ix1 a)) p a := by
  have hdot : Host.dotGeneral dot_S4096x276x64_S64x64_S4096x276x64_2_0_01_1_n_n none inn Wa (ix3 b p a)
      = ∑ d : Fin 64, inn (ix3 b p d) * Wa (ix2 d a) :=
    dot_last_apply dot_S4096x276x64_S64x64_S4096x276x64_2_0_01_1_n_n_wf none inn Wa b p a
  show max (Host.dotGeneral dot_S4096x276x64_S64x64_S4096x276x64_2_0_01_1_n_n none inn Wa (ix3 b p a)
        + broadcastInDim S4096x276x64 ![0, 1, 2] bcast_S1x1x64_S4096x276x64_0_1_2
            (broadcastInDim S1x1x64 ![2] bcast_S64_S1x1x64_2 ba) (ix3 b p a))
      (broadcastInDim S4096x276x64 ![] bcast_S_S4096x276x64 (constant (F := Ideal) S_ .f32 0x00000000#32) (ix3 b p a))
    = max ((∑ d : Fin 64, inn (ix3 b p d) * Wa (ix2 d a)) + ba (ix1 a)) AFM.zero
  rw [hdot, biasA_apply, zeroSplat_apply]

theorem refLogits_apply (inn : FVec Ideal S4096x276x64 .f32) (Wa : FVec Ideal S64x64 .f32) (ba : FVec Ideal S64 .f32)
    (Wp : FVec Ideal S64x1 .f32) (bp : FVec Ideal S1 .f32) (b : Fin 4096) (p : Fin 276) :
    refLogits (refHidden inn Wa ba) Wp bp (ix3 b p (0 : Fin 1))
      = AFM.logit (AFM.hidden (fun p d => inn (ix3 b p d)) (fun d a => Wa (ix2 d a)) (fun a => ba (ix1 a)))
          (fun a => Wp (ix2 a (0 : Fin 1))) (bp (ix1 (0 : Fin 1))) p := by
  have hdot : Host.dotGeneral dot_S4096x276x64_S64x1_S4096x276x1_2_0_01_1_n_n none (refHidden inn Wa ba) Wp (ix3 b p (0 : Fin 1))
      = ∑ a : Fin 64, refHidden inn Wa ba (ix3 b p a) * Wp (ix2 a (0 : Fin 1)) :=
    dot_last_apply dot_S4096x276x64_S64x1_S4096x276x1_2_0_01_1_n_n_wf none (refHidden inn Wa ba) Wp b p (0 : Fin 1)
  show Host.dotGeneral dot_S4096x276x64_S64x1_S4096x276x1_2_0_01_1_n_n none (refHidden inn Wa ba) Wp (ix3 b p (0 : Fin 1))
        + broadcastInDim S4096x276x1 ![0, 1, 2] bcast_S1x1x1_S4096x276x1_0_1_2
            (broadcastInDim S1x1x1 ![2] bcast_S1_S1x1x1_2 bp) (ix3 b p (0 : Fin 1))
    = (∑ a : Fin 64, AFM.hidden (fun p d => inn (ix3 b p d)) (fun d a => Wa (ix2 d a)) (fun a => ba (ix1 a)) p a
          * Wp (ix2 a (0 : Fin 1))) + bp (ix1 (0 : Fin 1))
  rw [hdot, biasP_apply]
  exact congrArg (· + bp (ix1 (0 : Fin 1))) (Finset.sum_congr rfl fun a _ => by rw [refHidden_apply])

end Cert.ReferenceIdeal.RefValue

end
-- ==== Proof.RefTail.lean ====
/-
  The reference from the logits on, read at an index: entry (b, 0) is the softmax-pooled products of sample b through the final layer.

  Stage by stage over explicit coordinates. A reduction over the pair axis is a fold or a sum over p : Fin 276 of the entries
  (b, p, ·); a broadcast reads the operand at the kept coordinates, 0 on its unit axes; the final contraction is a sum over the
  feature d : Fin 64 of the pooled entry (b, d) times the weight entry (d, 0). The zero word a sum starts from is 0 and drops;
  the -∞ word the maximum starts from stays as it stands on both sides.
-/
import proofs.«117869_j75273596829809_1_alg».proof.Proof.RefTerm
import proofs.«117869_j75273596829809_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.RefTerm Idealize.ShloMosaic Idealize.ShloMosaic.ValueIdx

namespace Tail

/-- The shape fact of the reduction of a [4096, 276, 1] array over its pair axis, in the form that names the inserted index. -/
theorem reduces_l : S4096x276x1.Reduces [1] S4096x1 := by decide

/-- The shape fact of the reduction of a [4096, 276, 64] array over its pair axis. -/
theorem reduces_i : S4096x276x64.Reduces [1] S4096x64 := by decide

/-- Sample b of a [4096, 1] column with pair p inserted on the dropped axis is entry (b, p, 0). -/
theorem lift_l (b : Fin 4096) (p : Fin 276) : reduces_l.lift (ix2 b (0 : Fin 1)) p = ix3 b p (0 : Fin 1) := by
  funext c
  refine Fin.ext ?_
  match c with
  | ⟨0, _⟩ => rfl
  | ⟨1, _⟩ => rfl
  | ⟨2, _⟩ => rfl

/-- Entry (b, d) of a [4096, 64] array with pair p inserted on the dropped axis is entry (b, p, d). -/
theorem lift_i (b : Fin 4096) (d : Fin 64) (p : Fin 276) : reduces_i.lift (ix2 b d) p = ix3 b p d := by
  funext c
  refine Fin.ext ?_
  match c with
  | ⟨0, _⟩ => rfl
  | ⟨1, _⟩ => rfl
  | ⟨2, _⟩ => rfl

/-- A column [4096, 1] laid out as [4096, 1, 1] and copied along the pair axis reads, at (b, p, 0), its entry (b, 0). -/
theorem bcast_col_apply (c : FVec Ideal S4096x1 .f32) (b : Fin 4096) (p : Fin 276) :
    broadcastInDim S4096x276x1 ![0, 1, 2] Facts₀.bcast_S4096x1x1_S4096x276x1_0_1_2
      (broadcastInDim S4096x1x1 ![0, 2] Facts₀.bcast_S4096x1_S4096x1x1_0_2 c) (ix3 b p (0 : Fin 1)) = c (ix2 b (0 : Fin 1)) := by
  refine (broadcastInDim_apply _ _ _ (ix3 b p (0 : Fin 1)) (ix3 b (0 : Fin 1) (0 : Fin 1)) fun a => ?_).trans ?_
  · match a with
    | ⟨0, _⟩ => rfl
    | ⟨1, _⟩ => rfl
    | ⟨2, _⟩ => rfl
  · refine broadcastInDim_apply _ _ _ (ix3 b (0 : Fin 1) (0 : Fin 1)) (ix2 b (0 : Fin 1)) fun a => ?_
    match a with
    | ⟨0, _⟩ => rfl
    | ⟨1, _⟩ => rfl

/-- The largest logit of sample b, as the reference takes it: the fold of the maximum from -∞ over the pairs, against -∞. -/
theorem refMax_apply (l : FVec Ideal S4096x276x1 .f32) (b : Fin 4096) :
    maximumf (broadcastInDim S4096x1 ![] Facts₀.bcast_S_S4096x1 (constant S_ .f32 0xFF800000#32))
        (Host.reduce FloatOps.maximumf l (constant S_ .f32 0xFF800000#32) Facts₀.reducesTo_S4096x276x1_S4096x1_d1 Facts₀.h_S_) (ix2 b (0 : Fin 1))
      = AFM.rowMax (fun p => l (ix3 b p (0 : Fin 1))) := by
  rw [maximumf_apply, Host.reduce_eq_fold_single FloatOps.maximumf l _ _ reduces_l]
  have hl : (l ∘ reduces_l.lift (ix2 b (0 : Fin 1))) = fun p : Fin 276 => l (ix3 b p (0 : Fin 1)) :=
    funext fun p => congrArg l (lift_l b p)
  rw [hl]
  rfl

/-- The unnormalised softmax weight of pair p of sample b. -/
theorem refExp_apply (l : FVec Ideal S4096x276x1 .f32) (b : Fin 4096) (p : Fin 276) :
    refExp l (ix3 b p (0 : Fin 1)) = AFM.expo (fun p => l (ix3 b p (0 : Fin 1))) p := by
  show Ideal.exp (l (ix3 b p (0 : Fin 1)) - _) = Ideal.exp (l (ix3 b p (0 : Fin 1)) - _)
  rw [bcast_col_apply, refMax_apply]

/-- The sum over the pairs of sample b, as the reference takes it from the zero word. -/
theorem refSum_apply (e : FVec Ideal S4096x276x1 .f32) (b : Fin 4096) :
    Host.reduceAdd e (constant S_ .f32 0x00000000#32) Facts₀.reducesTo_S4096x276x1_S4096x1_d1 Facts₀.h_S_ (ix2 b (0 : Fin 1))
      = ∑ q : Fin 276, e (ix3 b q (0 : Fin 1)) := by
  show Ideal.hostReduceAdd Facts₀.reducesTo_S4096x276x1_S4096x1_d1 e (Ideal.ofBits .f32 0x00000000#32) (ix2 b (0 : Fin 1)) = _
  rw [Ideal.hostReduceAdd_single _ reduces_l, Ideal.ofBits_zero_f32, zero_add]
  exact Finset.sum_congr rfl fun q _ => congrArg e (lift_l b q)

/-- A weight array divided by its sums over the pairs, at (b, p, 0). -/
theorem refAttn_apply (e : FVec Ideal S4096x276x1 .f32) (b : Fin 4096) (p : Fin 276) :
    refAttn e (ix3 b p (0 : Fin 1)) = Ideal.div (e (ix3 b p (0 : Fin 1))) (∑ q : Fin 276, e (ix3 b q (0 : Fin 1))) := by
  show Ideal.div (e (ix3 b p (0 : Fin 1))) _ = _
  rw [bcast_col_apply, refSum_apply]

/-- The softmax weight of pair p of sample b. -/
theorem refAttn_refExp_apply (l : FVec Ideal S4096x276x1 .f32) (b : Fin 4096) (p : Fin 276) :
    refAttn (refExp l) (ix3 b p (0 : Fin 1)) = AFM.attn (fun p => l (ix3 b p (0 : Fin 1))) p := by
  rw [refAttn_apply, refExp_apply]
  unfold AFM.attn
  exact congrArg _ (Finset.sum_congr rfl fun q _ => refExp_apply l b q)

/-- A [4096, 276, 1] array copied along the feature axis reads, at (b, p, d), its entry (b, p, 0). -/
theorem bcast_feat_apply (w : FVec Ideal S4096x276x1 .f32) (b : Fin 4096) (p : Fin 276) (d : Fin 64) :
    broadcastInDim S4096x276x64 ![0, 1, 2] Facts₀.bcast_S4096x276x1_S4096x276x64_0_1_2 w (ix3 b p d) = w (ix3 b p (0 : Fin 1)) := by
  refine broadcastInDim_apply _ _ _ (ix3 b p d) (ix3 b p (0 : Fin 1)) fun a => ?_
  match a with
  | ⟨0, _⟩ => rfl
  | ⟨1, _⟩ => rfl
  | ⟨2, _⟩ => rfl

/-- The pooled products of sample b at feature d. -/
theorem refPooled_apply (l : FVec Ideal S4096x276x1 .f32) (inn : FVec Ideal S4096x276x64 .f32) (b : Fin 4096) (d : Fin 64) :
    refPooled l inn (ix2 b d) = AFM.pooled (fun p => l (ix3 b p (0 : Fin 1))) (fun p d => inn (ix3 b p d)) d := by
  show Ideal.hostReduceAdd Facts₀.reducesTo_S4096x276x64_S4096x64_d1 _ (Ideal.ofBits .f32 0x00000000#32) (ix2 b d) = _
  rw [Ideal.hostReduceAdd_single _ reduces_i, Ideal.ofBits_zero_f32, zero_add]
  have term : ∀ p : Fin 276,
      mulf (broadcastInDim S4096x276x64 ![0, 1, 2] Facts₀.bcast_S4096x276x1_S4096x276x64_0_1_2 (refAttn (refExp l))) inn
          (reduces_i.lift (ix2 b d) p)
        = AFM.attn (fun p => l (ix3 b p (0 : Fin 1))) p * inn (ix3 b p d) := fun p => by
    rw [lift_i, mulf_apply, bcast_feat_apply, refAttn_refExp_apply]
  exact Finset.sum_congr rfl fun p _ => term p

/-- The final layer's contraction index is its one coordinate, a feature. -/
def featEquiv : dot_S4096x64_S64x1_S4096x1_1_0_0_1_n_n.contr.Idx ≃ Fin 64 :=
  contrEquiv1 dot_S4096x64_S64x1_S4096x1_1_0_0_1_n_n 64 rfl rfl

/-- The pooled array is read on its sample axis at the output's sample … -/
theorem out_lhs0 (j : S4096x1.Idx) (k : dot_S4096x64_S64x1_S4096x1_1_0_0_1_n_n.contr.Idx) :
    (dot_S4096x64_S64x1_S4096x1_1_0_0_1_n_n.lhsIdx j k 0).val = (j 0).val := rfl

/-- … and on its feature axis at the contraction's feature. -/
theorem out_lhs1 (j : S4096x1.Idx) (k : dot_S4096x64_S64x1_S4096x1_1_0_0_1_n_n.contr.Idx) :
    (dot_S4096x64_S64x1_S4096x1_1_0_0_1_n_n.lhsIdx j k 1).val = (k ⟨0, by decide⟩).val :=
  dot_S4096x64_S64x1_S4096x1_1_0_0_1_n_n.lhsIdx_val_of_single rfl j k

/-- The weight column is read on its feature axis at the contraction's feature … -/
theorem out_rhs0 (j : S4096x1.Idx) (k : dot_S4096x64_S64x1_S4096x1_1_0_0_1_n_n.contr.Idx) :
    (dot_S4096x64_S64x1_S4096x1_1_0_0_1_n_n.rhsIdx j k 0).val = (k ⟨0, by decide⟩).val :=
  dot_S4096x64_S64x1_S4096x1_1_0_0_1_n_n.rhsIdx_val_of_single rfl j k

/-- … and on its unit axis at the output's unit coordinate. -/
theorem out_rhs1 (j : S4096x1.Idx) (k : dot_S4096x64_S64x1_S4096x1_1_0_0_1_n_n.contr.Idx) :
    (dot_S4096x64_S64x1_S4096x1_1_0_0_1_n_n.rhsIdx j k 1).val = (j 1).val := rfl

/-- At output (b, 0) and feature d the pooled array is read at (b, d). -/
theorem out_lhsIdx (b : Fin 4096) (d : Fin 64) :
    dot_S4096x64_S64x1_S4096x1_1_0_0_1_n_n.lhsIdx (ix2 b (0 : Fin 1)) (featEquiv.symm d) = ix2 b d := by
  funext a
  refine Fin.ext ?_
  match a with
  | ⟨0, _⟩ => exact out_lhs0 _ _
  | ⟨1, _⟩ => exact (out_lhs1 _ _).trans (contrEquiv1_symm_val _ 64 rfl rfl d)

/-- At output (b, 0) and feature d the weight column is read at (d, 0). -/
theorem out_rhsIdx (b : Fin 4096) (d : Fin 64) :
    dot_S4096x64_S64x1_S4096x1_1_0_0_1_n_n.rhsIdx (ix2 b (0 : Fin 1)) (featEquiv.symm d) = ix2 d (0 : Fin 1) := by
  funext a
  refine Fin.ext ?_
  match a with
  | ⟨0, _⟩ => exact (out_rhs0 _ _).trans (contrEquiv1_symm_val _ 64 rfl rfl d)
  | ⟨1, _⟩ => exact out_rhs1 _ _

/-- The bias word laid out as [1, 1] and copied down the samples reads, at (b, 0), the word. -/
theorem bcast_bias_apply (bfc : FVec Ideal S1 .f32) (b : Fin 4096) :
    broadcastInDim S4096x1 ![0, 1] Facts₀.bcast_S1x1_S4096x1_0_1 (broadcastInDim S1x1 ![1] Facts₀.bcast_S1_S1x1_1 bfc) (ix2 b (0 : Fin 1))
      = bfc (ix1 (0 : Fin 1)) := by
  refine (broadcastInDim_apply _ _ _ (ix2 b (0 : Fin 1)) (ix2 (0 : Fin 1) (0 : Fin 1)) fun a => ?_).trans ?_
  · match a with
    | ⟨0, _⟩ => rfl
    | ⟨1, _⟩ => rfl
  · refine broadcastInDim_apply _ _ _ (ix2 (0 : Fin 1) (0 : Fin 1)) (ix1 (0 : Fin 1)) fun a => ?_
    match a with
    | ⟨0, _⟩ => rfl

/-- The final linear layer on a [4096, 64] array, at (b, 0). -/
theorem refOut_apply (po : FVec Ideal S4096x64 .f32) (Wfc : FVec Ideal S64x1 .f32) (bfc : FVec Ideal S1 .f32) (b : Fin 4096) :
    refOut po Wfc bfc (ix2 b (0 : Fin 1))
      = AFM.final (fun d => po (ix2 b d)) (fun d => Wfc (ix2 d (0 : Fin 1))) (bfc (ix1 (0 : Fin 1))) := by
  unfold refOut AFM.final
  rw [addf_apply, bcast_bias_apply]
  simp only [Host.dotGeneral]
  rw [Ideal.dotGeneral_apply, ← Equiv.sum_comp featEquiv.symm]
  exact congrArg (· + bfc (ix1 (0 : Fin 1))) (Finset.sum_congr rfl fun d _ => by rw [out_lhsIdx, out_rhsIdx])

end Tail

open Tail in
theorem refTail_apply (l : FVec Ideal S4096x276x1 .f32) (inn : FVec Ideal S4096x276x64 .f32) (Wfc : FVec Ideal S64x1 .f32)
    (bfc : FVec Ideal S1 .f32) (b : Fin 4096) :
    refOut (refPooled l inn) Wfc bfc (ix2 b (0 : Fin 1))
      = AFM.tail (fun p => l (ix3 b p (0 : Fin 1))) (fun p d => inn (ix3 b p d)) (fun d => Wfc (ix2 d (0 : Fin 1))) (bfc (ix1 (0 : Fin 1))) := by
  rw [refOut_apply]
  unfold AFM.tail
  exact congrArg (fun po => AFM.final po _ _) (funext fun d => refPooled_apply l inn b d)

end Cert.ReferenceIdeal.RefValue

end
-- ==== Proof.RefValue.lean ====
/-
  The reference's result array is the batch network `AFM.G` of its argument arrays: entry (b, 0) goes through the stages
  (pairwise products, logits, softmax pooling and final layer), each read at sample b.
-/
import proofs.«117869_j75273596829809_1_alg».proof.Proof.RefInner
import proofs.«117869_j75273596829809_1_alg».proof.Proof.RefLogits
import proofs.«117869_j75273596829809_1_alg».proof.Proof.RefTail
import proofs.«117869_j75273596829809_1_alg».proof.Proof.SpecArray

noncomputable section

namespace Cert.ReferenceIdeal.RefValue

open Cert.ReferenceIdeal Cert.ReferenceIdeal.RefTerm Idealize.ShloMosaic Idealize.ShloMosaic.ValueIdx

/-- The reference's entry (b, 0) is the network on sample b. -/
theorem refVal_apply (x : FVec Ideal S4096x24x64 .f32) (Wa : FVec Ideal S64x64 .f32) (ba : FVec Ideal S64 .f32) (Wp : FVec Ideal S64x1 .f32)
    (bp : FVec Ideal S1 .f32) (Wfc : FVec Ideal S64x1 .f32) (bfc : FVec Ideal S1 .f32) (b : Fin 4096) :
    refVal x Wa ba Wp bp Wfc bfc (ix2 b (0 : Fin 1))
      = AFM.rowOut (fun f d => x (ix3 b f d)) (fun d a => Wa (ix2 d a)) (fun a => ba (ix1 a)) (fun a => Wp (ix2 a (0 : Fin 1)))
          (bp (ix1 (0 : Fin 1))) (fun d => Wfc (ix2 d (0 : Fin 1))) (bfc (ix1 (0 : Fin 1))) := by
  have hinn : (fun p d => refInner x (ix3 b p d)) = AFM.inner (fun f d => x (ix3 b f d)) := by
    funext p d; rw [refInner_apply]; rfl
  have hl : (fun p => refLogits (refHidden (refInner x) Wa ba) Wp bp (ix3 b p (0 : Fin 1)))
      = AFM.logit (AFM.hidden (AFM.inner (fun f d => x (ix3 b f d))) (fun d a => Wa (ix2 d a)) (fun a => ba (ix1 a)))
          (fun a => Wp (ix2 a (0 : Fin 1))) (bp (ix1 (0 : Fin 1))) := by
    funext p; rw [refLogits_apply, hinn]
  unfold refVal refRest
  rw [refTail_apply, hl, hinn]
  rfl

/-- The reference's result array is the batch network of its arguments. -/
theorem refVal_eq_G (x : FVec Ideal S4096x24x64 .f32) (Wa : FVec Ideal S64x64 .f32) (ba : FVec Ideal S64 .f32) (Wp : FVec Ideal S64x1 .f32)
    (bp : FVec Ideal S1 .f32) (Wfc : FVec Ideal S64x1 .f32) (bfc : FVec Ideal S1 .f32) :
    refVal x Wa ba Wp bp Wfc bfc = AFM.G x Wa ba Wp bp Wfc bfc := by
  funext i
  obtain ⟨b, z, rfl⟩ : ∃ (b : Fin 4096) (z : Fin 1), i = ix2 b z := ⟨i 0, i 1, eq_ix2 i⟩
  obtain rfl : z = 0 := Subsingleton.elim _ _
  rw [refVal_apply, AFM.G_apply]

end Cert.ReferenceIdeal.RefValue

end
-- ==== Proof.lean ====
/-
  The Attentional Factorization Machine kernel against its reference, over the extended reals.
  Both programs compute, for each of the 4096 samples, the pairwise products of its 24 fields (276 pairs, 64 features each), a
  rectified 64 → 64 attention layer and a 64 → 1 projection giving one logit per pair, a softmax over the pairs, the products
  pooled by the softmax weights, and a final 64 → 1 layer. The kernel does this on blocks of 128 samples, slicing the fields and
  stacking the 276 products, with the two layers as matrix products on the block flattened to 35328 rows; the reference gathers
  the fields through two tables of field numbers and contracts whole arrays. At the ideal values every operation is the exact
  one, a matrix product into a zero accumulator and a contraction are the same sum, and a reduction is a sum or a maximum over
  the pairs whatever its order: both result arrays are the one function `AFM.G` of the argument arrays.
-/
import proofs.«117869_j75273596829809_1_alg».proof.Defs
import proofs.«117869_j75273596829809_1_alg».proof.Proof.Gen.Kernel
import proofs.«117869_j75273596829809_1_alg».proof.Proof.Gen.KernelIdeal
import proofs.«117869_j75273596829809_1_alg».proof.Proof.Gen.ReferenceIdeal
import proofs.«117869_j75273596829809_1_alg».proof.Proof.Gen.Pre_finite_inputs
import proofs.«117869_j75273596829809_1_alg».proof.Proof.KernelFrame
import proofs.«117869_j75273596829809_1_alg».proof.Proof.KernelIdealFrame
import proofs.«117869_j75273596829809_1_alg».proof.Proof.KerArray
import proofs.«117869_j75273596829809_1_alg».proof.Proof.RefRun
import proofs.«117869_j75273596829809_1_alg».proof.Proof.RefValue
import Idealize.ShloMosaic.Adequacy
import Idealize.ShloMosaic.Init

noncomputable section

namespace Cert.Proof

open Idealize.ShloMosaic Idealize.SL.Sem

/-- The certificate. The two kernel programs' frames are their frame runs; the reference's frame is its run with the result dropped;
    nothing was rewritten by the idealization; and at the ideal values both programs end with the batch network `AFM.G` of the
    (agreeing) argument arrays in their result arrays. -/
theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · exact fun m ρ _ => Cert.Kernel.GenP.frame m ρ
  · exact fun m ρ _ => Cert.KernelIdeal.GenP.frame m ρ
  · exact fun m ρ _ =>
      (θ_run Cert.ReferenceIdeal.defs _ _).mono (fun _ h c => (h c).2) (Cert.ReferenceIdeal.RefRun.run (F := Ideal) m ρ)
  · intro m ρ m' ρ' _ hagree
    refine ⟨fun c => Cert.KernelIdeal.KerArray.Garr m c, Cert.KernelIdeal.KerArray.run m ρ, ?_⟩
    refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6⟩ := hagree c
    rw [e0, e1, e2, e3, e4, e5, e6]
    exact Cert.ReferenceIdeal.RefValue.refVal_eq_G _ _ _ _ _ _ _

end Cert.Proof

end
